-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S512x256 : Shape := ⟨2, ![512, 256]⟩
abbrev S512x1 : Shape := ⟨2, ![512, 1]⟩
abbrev S1x512 : Shape := ⟨2, ![1, 512]⟩
abbrev S256x512 : Shape := ⟨2, ![256, 512]⟩
abbrev S512x512 : Shape := ⟨2, ![512, 512]⟩
abbrev S512 : Shape := ⟨1, ![512]⟩

abbrev nBuf : Space → Nat
  | .hbm => 15
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x256, .f32⟩
  | .hbm, ⟨8, _⟩ => ⟨S8192x256, .f32⟩
  | .hbm, ⟨9, _⟩ => ⟨S8192x256, .bf16⟩
  | .hbm, ⟨10, _⟩ => ⟨S8192x1, .i32⟩
  | .hbm, ⟨11, _⟩ => ⟨S1x8192, .i32⟩
  | .hbm, ⟨12, _⟩ => ⟨S8192x1, .f32⟩
  | .hbm, ⟨13, _⟩ => ⟨S_, .f32⟩
  | .hbm, ⟨14, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v57 : BitVec 1 := Scalar.cmpi .eq arg1 c15_i32
  let v58 : BitVec 32 := Scalar.extui v57
  let c0_i32_28 : BitVec 32 := 0#32
  let v59 : BitVec 1 := Scalar.cmpi .ne v58 c0_i32_28
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bitsLt_bf16_f32 : FTy.bits .bf16 < FTy.bits .f32
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  iota_S512x512_d0_w32 : S512x512.Iotas .tc 32 [0]
  iota_S512x512_d1_w32 : S512x512.Iotas .tc 32 [1]
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  natLt_1_32 : 1 < 32
  reducesTo_S8192x1_S_d0_1 : S8192x1.ReducesTo [0, 1] S_
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .bf16 = 32 ∨ (Rect.block (s := S8192x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_v3) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 62
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x256, .f32⟩
  | .hbm, ⟨8, _⟩ => ⟨S8192x256, .f32⟩
  | .hbm, ⟨9, _⟩ => ⟨S256x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .i32⟩
  | .hbm, ⟨15, _⟩ => ⟨S8192x8192, .i32⟩
  | .hbm, ⟨16, _⟩ => ⟨S_, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S8192x8192, .f32⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S8192x8192, .f32⟩
  | .hbm, ⟨30, _⟩ => ⟨S8192x8192, .f32⟩
  | .hbm, ⟨31, _⟩ => ⟨S8192x1, .i32⟩
  | .hbm, ⟨32, _⟩ => ⟨S1x8192, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x8192, .i1⟩
  | .hbm, ⟨37, _⟩ => ⟨S8192x8192, .i1⟩
  | .hbm, ⟨38, _⟩ => ⟨S8192x8192, .i32⟩
  | .hbm, ⟨39, _⟩ => ⟨S_, .i32⟩
  | .hbm, ⟨40, _⟩ => ⟨S8192, .i32⟩
  | .hbm, ⟨41, _⟩ => ⟨S_, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S8192, .f32⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_cst_3 : Ref sig .tc := ⟨.hbm, 41, rfl⟩
abbrev main_call2_v0 : Ref sig .tc := ⟨.hbm, 42, rfl⟩
abbrev main_call2_v1 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_call3_v0 : Ref sig .tc := ⟨.hbm, 57, rfl⟩
abbrev main_call3_v1 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  natLt_1_32 : 1 < 32
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KI.Setup.lean ====
/-
  What every module about this kernel's region shares: the buffer contents when the region is entered
  (after the ten host operations that normalise the rows and reshape the labels), @main reduced to the
  region continued by its last two host operations, a window's block at a grid point, the two branch
  conditions of the body in closed form over the 16 x 16 grid (the key-tile index is the point modulo 16:
  the accumulators are reset where it is 0 and the per-row result is written where it is 15), where the
  output window is idle, and the staging and scratch memrefs the body is called with.
-/
import proofs.«101262_j54296976556236_1_alg».proof.Proof.Gen.KernelIdeal.Launch
import proofs.«101262_j54296976556236_1_alg».proof.Proof.Gen.KernelIdeal.Skeleton
import proofs.«101262_j54296976556236_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the row norms,
    the division by them, the change of format and the two reshapes of the labels. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two stretches of host operations, the region, and the last stretch: it reduces to the region
    continued by that last stretch, the unscoped buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branches -/

/-- The key-tile index is 0: the body resets its three accumulators. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- The key-tile index is 15: the body writes the query tile's per-row result. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last key tile the body stores nothing into the output window, -/
theorem idle4 : ∀ t : Fin cfg0.N, ¬isLast (grid0.coords t) → cfg0.idle 4 (grid0.coords t) = true := by decide +kernel
/-- and the pipeline does not write its block back there; -/
theorem noFlush4 : ∀ t : Fin cfg0.N, ¬isLast (grid0.coords t) → (cfg0.win 4).flush t = false := by decide +kernel
/-- at the last key tile it does store. -/
theorem live4 : ∀ t : Fin cfg0.N, isLast (grid0.coords t) → cfg0.idle 4 (grid0.coords t) = false := by decide +kernel

/-! ## The memrefs the body is called with -/

abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
/-- The three accumulators: the off-diagonal exponential sums, the positive-pair similarity sums, the positive counts. -/
abbrev scE : Memref sig .tc .vmem S512x1 .f32 := Memref.whole cc0_scratch0
abbrev scP : Memref sig .tc .vmem S512x1 .f32 := Memref.whole cc0_scratch1
abbrev scN : Memref sig .tc .vmem S512x1 .f32 := Memref.whole cc0_scratch2
/-- One staging buffer of the output window, through which its contents are stated. -/
abbrev VO : View sig .tc .vmem S512x1 .f32 := (Memref.whole cc0_stg4_0 : Memref sig .tc .vmem S512x1 .f32).view

/-- The frame kit's invariant with the three accumulators as memrefs owned at some contents. -/
theorem PhiA_eq (c : Dev nD) :
    (Pipeline.ΦA spec0 c : sProp 𝕄)
      = iprop(iprop((∃ d, owns (c : Thread nD τ) scE fullShare d) ∗ (∃ d, owns (c : Thread nD τ) scP fullShare d) ∗ (∃ d, owns (c : Thread nD τ) scN fullShare d)) ∗ (∃ r, prngReg c r)) := by
  unfold Pipeline.ΦA; rw [scopedRest0_eq]; simp only [scE, scP, scN, owns_whole]; try rfl

end Cert.KernelIdeal.H

end
-- ==== Proof.KI.Dats.lean ====
/-
  What the body leaves, point by point, as explicit functions of the windows' blocks.

  At grid point (q, k) the body holds the query rows' block `x0` (rows 512 q ..), the key rows' block `x1`
  (rows 512 k ..), their labels `x2` (a column) and `x3` (a row), and three per-row accumulators over the key
  tiles seen so far for this query tile: `E` (the off-diagonal exponentials of the scaled similarities),
  `P` (the scaled similarities of the positive pairs) and `C` (the count of positive pairs). Each point adds
  its key tile's row sums to the three, starting from zero at k = 0; at k = 15 the output block is
  `(0 - (P - C · log E)) / max C 1` where `C > 0`, else 0. The accumulators after each point are a recursion on the
  point; the region invariant carries them from one point to the next.
-/
import proofs.«101262_j54296976556236_1_alg».proof.Proof.KI.Setup

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point's updates -/

/-- The exponential sums after a point, from those before it: the key tile's off-diagonal `exp` row sums added. -/
def stepE (i : grid0.Coords) (x0 x1 : Vec F S512x256 .bf16) (r : Vec F S512x1 .f32) : Vec F S512x1 .f32 :=
  k0_pay1 (k0_pay11 i x0 x1 r)
/-- The positive-pair similarity sums after a point. -/
def stepP (i : grid0.Coords) (x0 x1 : Vec F S512x256 .bf16) (x2 : Vec F S512x1 .i32) (x3 : Vec F S1x512 .i32)
    (r : Vec F S512x1 .f32) : Vec F S512x1 .f32 :=
  k0_pay2 (k0_pay8 x0 x1) (k0_pay10 i x2 x3) r
/-- The positive-pair counts after a point. -/
def stepC (i : grid0.Coords) (x2 : Vec F S512x1 .i32) (x3 : Vec F S1x512 .i32) (r : Vec F S512x1 .f32) : Vec F S512x1 .f32 :=
  k0_pay3 (k0_pay10 i x2 x3) r
/-- The query tile's per-row result from its three finished accumulators. -/
def outRow (e p n : Vec F S512x1 .f32) : Vec F S512x1 .f32 := k0_pay4 n p e

/-- The three accumulators `(E, P, C)`. -/
abbrev Acc (F : FTy → Type) [FloatOps F] : Type := Vec F S512x1 .f32 × Vec F S512x1 .f32 × Vec F S512x1 .f32

/-- What the reset at the first key tile stores. -/
def accZero : Acc F := (k0_pay5, k0_pay6, k0_pay7)

/-- All three updates of one point. -/
def stepAll (i : grid0.Coords) (x0 x1 : Vec F S512x256 .bf16) (x2 : Vec F S512x1 .i32) (x3 : Vec F S1x512 .i32) (a : Acc F) : Acc F :=
  (stepE i x0 x1 a.1, stepP i x0 x1 x2 x3 a.2.1, stepC i x2 x3 a.2.2)

/-- The accumulators after the body at position `n`: the point's updates applied to zero at a first key tile, else to
    what the point before left. -/
def accAt (c : Dev nD) : (n : ℕ) → n < cfg0.N → Acc F
  | 0, hn => stepAll (grid0.coords ⟨0, hn⟩) (iblk m c 0 ⟨0, hn⟩) (iblk m c 1 ⟨0, hn⟩) (iblk m c 2 ⟨0, hn⟩) (iblk m c 3 ⟨0, hn⟩) accZero
  | n + 1, hn => stepAll (grid0.coords ⟨n + 1, hn⟩) (iblk m c 0 ⟨n + 1, hn⟩) (iblk m c 1 ⟨n + 1, hn⟩) (iblk m c 2 ⟨n + 1, hn⟩) (iblk m c 3 ⟨n + 1, hn⟩)
      (if (n + 1) % 16 = 0 then accZero else accAt c n (Nat.lt_of_succ_lt hn))

/-- At a first key tile the updates start from zero. -/
theorem accAt_first (c : Dev nD) (t : Fin cfg0.N) (h : t.val % 16 = 0) :
    accAt m c t.val t.isLt = stepAll (grid0.coords t) (iblk m c 0 t) (iblk m c 1 t) (iblk m c 2 t) (iblk m c 3 t) accZero := by
  obtain ⟨n, hn⟩ := t
  cases n with
  | zero => rfl
  | succ n => show stepAll _ _ _ _ _ (if (n + 1) % 16 = 0 then accZero else _) = _; rw [if_pos h]

/-- Elsewhere they start from what the point before left. -/
theorem accAt_next (c : Dev nD) (t : Fin cfg0.N) (h : ¬t.val % 16 = 0) :
    accAt m c t.val t.isLt = stepAll (grid0.coords t) (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd (Nat.zero_mod _) h
  | succ n => show stepAll _ _ _ _ _ (if (n + 1) % 16 = 0 then accZero else _) = _; rw [if_neg h]; rfl

/-! ## The region invariant -/

/-- Before position `n`: at the region's entry the frame kit's invariant (the accumulators at anything); afterwards
    the accumulators at what the point before left, and the generator register at some state. -/
def PhiS (c : Dev nD) : (n : ℕ) → n ≤ cfg0.N → sProp 𝕄
  | 0, _ => Pipeline.ΦA spec0 c
  | n + 1, hn => iprop(iprop(owns (c : Thread nD τ) scE fullShare (accAt m c n hn).1 ∗ owns (c : Thread nD τ) scP fullShare (accAt m c n hn).2.1
      ∗ owns (c : Thread nD τ) scN fullShare (accAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scE fullShare (accAt m c n hn).1 ∗ owns (c : Thread nD τ) scP fullShare (accAt m c n hn).2.1
      ∗ owns (c : Thread nD τ) scN fullShare (accAt m c n hn).2.2) ∗ (∃ r, prngReg c r)) := rfl

theorem PhiS_pos (c : Dev nD) (n : ℕ) (h : n ≤ cfg0.N) (hz : n ≠ 0) :
    PhiS m c n h = iprop(iprop(owns (c : Thread nD τ) scE fullShare (accAt m c (n - 1) (by omega)).1 ∗ owns (c : Thread nD τ) scP fullShare (accAt m c (n - 1) (by omega)).2.1
      ∗ owns (c : Thread nD τ) scN fullShare (accAt m c (n - 1) (by omega)).2.2) ∗ (∃ r, prngReg c r)) := by
  cases n with
  | zero => exact absurd rfl hz
  | succ n => rfl

/-! ## The pipeline's proof data -/

/-- The proof data on core `c`: the arrays as the region finds them; after the body at point `t` each input's buffer
    at its block and the output's at the query tile's result from the accumulators there; the invariant above; nothing
    owed; the normalised rows' array, which two windows read, held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outRow (accAt m c t.val t.isLt).1 (accAt m c t.val t.isLt).2.1 (accAt m c t.val t.isLt).2.2
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outRow (accAt m c t.val t.isLt).1 (accAt m c t.val t.isLt).2.1 (accAt m c t.val t.isLt).2.2 := by dsimp only [dats]

theorem q0 (c : Dev nD) : (dats m 0 c).q 0 = fullShare.left := rfl
theorem q1 (c : Dev nD) : (dats m 0 c).q 1 = fullShare.right := rfl
theorem q2 (c : Dev nD) : (dats m 0 c).q 2 = fullShare := rfl
theorem q3 (c : Dev nD) : (dats m 0 c).q 3 = fullShare := rfl

/-- Each input's current staging buffer holds its block at every point, fetched there or not: the body leaves it in place. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.KernelIdeal.H

end
-- ==== Proof.KI.RunFirst.lean ====
/-
  The body at a FIRST key tile (and not the last): it resets the three accumulators, adds the key tile's row sums to them, and leaves the output window's buffer untouched. The inputs' buffers are handed back as found.
-/
import proofs.«101262_j54296976556236_1_alg».proof.Proof.KI.Dats
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a first key tile that is not the last, run over whole memrefs: what its stores leave in the three
    accumulators, as written pieces (the reset, then the update); the output buffer is not stored into. -/
noncomputable def firstRun (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : isFirst i) (hc1 : ¬isLast i)
    (x0 x1 : Vec F S512x256 .bf16) (x2 : Vec F S512x1 .i32) (x3 : Vec F S1x512 .i32) (xi4 : Vec F S512x1 .f32) :
    Σ' (L7 : List (View.Piece (Elt F) S512x1 .f32)) (L8 : List (View.Piece (Elt F) S512x1 .f32)),
      { L9 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, ?_, fun E K => ?run⟩
  case run =>
    simp only [cc0__kernel_eq_skeleton]; unfold cc0__kernel_skel; simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3
    obtain rfl := harg6.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    isplitl [H7]; · iexists _; iexact H7
    isplitl [H8]; · iexists _; iexact H8
    iexists _; iexact H9

/-- The two offsets of every load and store of the body are zero. -/
theorem first_hz : (![0, 0] : Fin 2 → Nat) = fun _ => 0 :=
  funext fun a => match a with
    | ⟨0, _⟩ => rfl
    | ⟨1, _⟩ => rfl

/-- The stores into the exponential sums' accumulator cover it. -/
theorem first_cover7 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : isFirst i) (hc1 : ¬isLast i)
    (x0 x1 : Vec F S512x256 .bf16) (x2 : Vec F S512x1 .i32) (x3 : Vec F S1x512 .i32) (xi4 : Vec F S512x1 .f32) (y : S512x1.Idx) :
    ∃ pc ∈ (firstRun c i arg2 harg2 arg3 harg3 arg4 harg4 arg5 harg5 arg6 harg6 arg7 harg7 arg8 harg8 arg9 harg9 hc0 hc1 x0 x1 x2 x3 xi4).1, y ∈ pc.1.set :=
  View.cover_of_tiledL (firstRun c i arg2 harg2 arg3 harg3 arg4 harg4 arg5 harg5 arg6 harg6 arg7 harg7 arg8 harg8 arg9 harg9 hc0 hc1 x0 x1 x2 x3 xi4).1 S512x1.size (by sl_kernel_rfl) y

/-- The stores into the positive-pair sums' accumulator cover it. -/
theorem first_cover8 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : isFirst i) (hc1 : ¬isLast i)
    (x0 x1 : Vec F S512x256 .bf16) (x2 : Vec F S512x1 .i32) (x3 : Vec F S1x512 .i32) (xi4 : Vec F S512x1 .f32) (y : S512x1.Idx) :
    ∃ pc ∈ (firstRun c i arg2 harg2 arg3 harg3 arg4 harg4 arg5 harg5 arg6 harg6 arg7 harg7 arg8 harg8 arg9 harg9 hc0 hc1 x0 x1 x2 x3 xi4).2.1, y ∈ pc.1.set :=
  View.cover_of_tiledL (firstRun c i arg2 harg2 arg3 harg3 arg4 harg4 arg5 harg5 arg6 harg6 arg7 harg7 arg8 harg8 arg9 harg9 hc0 hc1 x0 x1 x2 x3 xi4).2.1 S512x1.size (by sl_kernel_rfl) y

/-- The stores into the positive counts' accumulator cover it. -/
theorem first_cover9 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : isFirst i) (hc1 : ¬isLast i)
    (x0 x1 : Vec F S512x256 .bf16) (x2 : Vec F S512x1 .i32) (x3 : Vec F S1x512 .i32) (xi4 : Vec F S512x1 .f32) (y : S512x1.Idx) :
    ∃ pc ∈ (firstRun c i arg2 harg2 arg3 harg3 arg4 harg4 arg5 harg5 arg6 harg6 arg7 harg7 arg8 harg8 arg9 harg9 hc0 hc1 x0 x1 x2 x3 xi4).2.2.1, y ∈ pc.1.set :=
  View.cover_of_tiledL (firstRun c i arg2 harg2 arg3 harg3 arg4 harg4 arg5 harg5 arg6 harg6 arg7 harg7 arg8 harg8 arg9 harg9 hc0 hc1 x0 x1 x2 x3 xi4).2.2.1 S512x1.size (by sl_kernel_rfl) y

/-- What the two stores into the exponential sums' accumulator leave, read back: the later one covers, and its payload is the point's update of the zero the reset stored (the load between the two reads the reset's payload). -/
theorem first_read7 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : isFirst i) (hc1 : ¬isLast i)
    (x0 x1 : Vec F S512x256 .bf16) (x2 : Vec F S512x1 .i32) (x3 : Vec F S1x512 .i32) (xi4 : Vec F S512x1 .f32) (v : View sig .tc .vmem S512x1 .f32) (f : v.ty.Contents (Elt F)) :
    v.read (Elt F) (v.writes (Elt F) f (firstRun c i arg2 harg2 arg3 harg3 arg4 harg4 arg5 harg5 arg6 harg6 arg7 harg7 arg8 harg8 arg9 harg9 hc0 hc1 x0 x1 x2 x3 xi4).1) = stepE i x0 x1 (accZero (F := F)).1 := by
  rw [View.read_writes_eq_canon _ _ _ (first_cover7 c i arg2 harg2 arg3 harg3 arg4 harg4 arg5 harg5 arg6 harg6 arg7 harg7 arg8 harg8 arg9 harg9 hc0 hc1 x0 x1 x2 x3 xi4)]
  unfold firstRun
  dsimp only
  sl_unfold_words
  dsimp only
  rw [View.canon_cons_unit_zero (S := S512x1) first_hz]
  simp only [View.readAt_eq_ld, harg2.read_unread, harg3.read_unread, harg4.read_unread, harg5.read_unread,
    View.readCov_unit_zero (S := S512x1) _ first_hz,
    View.ld_unit_zero (S := S512x256) first_hz, View.ld_unit_zero (S := S512x1) first_hz, View.ld_unit_zero (S := S1x512) first_hz]
  rfl

/-- What the two stores into the positive-pair sums' accumulator leave, read back. -/
theorem first_read8 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : isFirst i) (hc1 : ¬isLast i)
    (x0 x1 : Vec F S512x256 .bf16) (x2 : Vec F S512x1 .i32) (x3 : Vec F S1x512 .i32) (xi4 : Vec F S512x1 .f32) (v : View sig .tc .vmem S512x1 .f32) (f : v.ty.Contents (Elt F)) :
    v.read (Elt F) (v.writes (Elt F) f (firstRun c i arg2 harg2 arg3 harg3 arg4 harg4 arg5 harg5 arg6 harg6 arg7 harg7 arg8 harg8 arg9 harg9 hc0 hc1 x0 x1 x2 x3 xi4).2.1) = stepP i x0 x1 x2 x3 (accZero (F := F)).2.1 := by
  rw [View.read_writes_eq_canon _ _ _ (first_cover8 c i arg2 harg2 arg3 harg3 arg4 harg4 arg5 harg5 arg6 harg6 arg7 harg7 arg8 harg8 arg9 harg9 hc0 hc1 x0 x1 x2 x3 xi4)]
  unfold firstRun
  dsimp only
  sl_unfold_words
  dsimp only
  rw [View.canon_cons_unit_zero (S := S512x1) first_hz]
  simp only [View.readAt_eq_ld, harg2.read_unread, harg3.read_unread, harg4.read_unread, harg5.read_unread,
    View.readCov_unit_zero (S := S512x1) _ first_hz,
    View.ld_unit_zero (S := S512x256) first_hz, View.ld_unit_zero (S := S512x1) first_hz, View.ld_unit_zero (S := S1x512) first_hz]
  rfl

/-- What the two stores into the positive counts' accumulator leave, read back. -/
theorem first_read9 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : isFirst i) (hc1 : ¬isLast i)
    (x0 x1 : Vec F S512x256 .bf16) (x2 : Vec F S512x1 .i32) (x3 : Vec F S1x512 .i32) (xi4 : Vec F S512x1 .f32) (v : View sig .tc .vmem S512x1 .f32) (f : v.ty.Contents (Elt F)) :
    v.read (Elt F) (v.writes (Elt F) f (firstRun c i arg2 harg2 arg3 harg3 arg4 harg4 arg5 harg5 arg6 harg6 arg7 harg7 arg8 harg8 arg9 harg9 hc0 hc1 x0 x1 x2 x3 xi4).2.2.1) = stepC i x2 x3 (accZero (F := F)).2.2 := by
  rw [View.read_writes_eq_canon _ _ _ (first_cover9 c i arg2 harg2 arg3 harg3 arg4 harg4 arg5 harg5 arg6 harg6 arg7 harg7 arg8 harg8 arg9 harg9 hc0 hc1 x0 x1 x2 x3 xi4)]
  unfold firstRun
  dsimp only
  sl_unfold_words
  dsimp only
  rw [View.canon_cons_unit_zero (S := S512x1) first_hz]
  simp only [View.readAt_eq_ld, harg2.read_unread, harg3.read_unread, harg4.read_unread, harg5.read_unread,
    View.readCov_unit_zero (S := S512x1) _ first_hz,
    View.ld_unit_zero (S := S512x256) first_hz, View.ld_unit_zero (S := S512x1) first_hz, View.ld_unit_zero (S := S1x512) first_hz]
  rfl

/-- The body at a first key tile that is not the last, in closed form: whatever the accumulators held, it leaves them at
    the point's updates of zero, and the inputs' and the output's buffers as they were. -/
theorem run_first (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : isFirst i) (hc1 : ¬isLast i)
    (x0 x1 : Vec F S512x256 .bf16) (x2 : Vec F S512x1 .i32) (x3 : Vec F S1x512 .i32) (xi4 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare (stepE i x0 x1 (accZero (F := F)).1)
            ∗ owns (c : Thread nD τ) arg8 fullShare (stepP i x0 x1 x2 x3 (accZero (F := F)).2.1)
            ∗ owns (c : Thread nD τ) arg9 fullShare (stepC i x2 x3 (accZero (F := F)).2.2)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  iintro ⟨H0, H1, H2, H3, H6, H7, H8, H9, Hk⟩
  iapply ((firstRun c i arg2 harg2 arg3 harg3 arg4 harg4 arg5 harg5 arg6 harg6 arg7 harg7 arg8 harg8 arg9 harg9 hc0 hc1 x0 x1 x2 x3 xi4).2.2.2 E K)
  isplitl [H0]; · iexact H0
  isplitl [H1]; · iexact H1
  isplitl [H2]; · iexact H2
  isplitl [H3]; · iexact H3
  isplitl [H6]; · iexact H6
  isplitl [H7]; · iexact H7
  isplitl [H8]; · iexact H8
  isplitl [H9]; · iexact H9
  iintro ⟨H0, H1, H2, H3, H6, ⟨%e7, H7⟩, ⟨%e8, H8⟩, ⟨%e9, H9⟩⟩
  iapply Hk
  isplitl [H0]; · iexact H0
  isplitl [H1]; · iexact H1
  isplitl [H2]; · iexact H2
  isplitl [H3]; · iexact H3
  isplitl [H6]; · iexact H6
  isplitl [H7]
  · unfold owns; iexists _; isplitr
    swap; · iexact H7
    ipureintro; exact first_read7 c i arg2 harg2 arg3 harg3 arg4 harg4 arg5 harg5 arg6 harg6 arg7 harg7 arg8 harg8 arg9 harg9 hc0 hc1 x0 x1 x2 x3 xi4 _ _
  isplitl [H8]
  · unfold owns; iexists _; isplitr
    swap; · iexact H8
    ipureintro; exact first_read8 c i arg2 harg2 arg3 harg3 arg4 harg4 arg5 harg5 arg6 harg6 arg7 harg7 arg8 harg8 arg9 harg9 hc0 hc1 x0 x1 x2 x3 xi4 _ _
  unfold owns; iexists _; isplitr
  swap; · iexact H9
  ipureintro; exact first_read9 c i arg2 harg2 arg3 harg3 arg4 harg4 arg5 harg5 arg6 harg6 arg7 harg7 arg8 harg8 arg9 harg9 hc0 hc1 x0 x1 x2 x3 xi4 _ _

end Cert.KernelIdeal.H

end
-- ==== Proof.KI.RunMid.lean ====
/-
  The body at a key tile that is neither the first nor the last: it adds the key tile's row sums to the three accumulators, which it finds at what the point before left, and leaves the output window's buffer untouched.

  Neither conditional region is entered. Each accumulator is stored once, through the rectangle that is its whole
  shape, so what it holds afterwards is that store's payload; the payload's operands are the blocks and the
  accumulator's former contents, each read through a whole-shape rectangle, hence the blocks and contents themselves.
-/
import proofs.«101262_j54296976556236_1_alg».proof.Proof.KI.Dats
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two offsets of a whole-shape rectangle are zero, however they are spelt. -/
theorem mid_hz : (![0, 0] : Fin 2 → Nat) = fun _ => 0 := funext fun a => by fin_cases a <;> rfl

set_option maxHeartbeats 4000000 in
theorem run_mid (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬isFirst i) (hc1 : ¬isLast i)
    (x0 x1 : Vec F S512x256 .bf16) (x2 : Vec F S512x1 .i32) (x3 : Vec F S1x512 .i32) (xi4 : Vec F S512x1 .f32) (a : Acc F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
        ∗ owns (c : Thread nD τ) arg7 fullShare a.1 ∗ owns (c : Thread nD τ) arg8 fullShare a.2.1 ∗ owns (c : Thread nD τ) arg9 fullShare a.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare (stepE i x0 x1 a.1)
            ∗ owns (c : Thread nD τ) arg8 fullShare (stepP i x0 x1 x2 x3 a.2.1)
            ∗ owns (c : Thread nD τ) arg9 fullShare (stepC i x2 x3 a.2.2)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [View.read_writes_eq_canon _ _ _ (fun y => ⟨_, List.mem_singleton_self _, View.mem_set_unit_zero mid_hz inb_S512x1_S512x1_0_0 y⟩)]
    rw [View.canon_unit_zero mid_hz]
    sl_unfold_words
    simp only [View.readAt_eq_ld, harg2.read_unread, harg3.read_unread, harg7.read_unread, View.ld_unit_zero (S := S512x256) mid_hz, View.ld_unit_zero (S := S512x1) mid_hz]
    rfl
  isplitl [H6]
  · iexists _; isplitr; swap; · iexact H6
    ipureintro
    rw [View.read_writes_eq_canon _ _ _ (fun y => ⟨_, List.mem_singleton_self _, View.mem_set_unit_zero mid_hz inb_S512x1_S512x1_0_0 y⟩)]
    rw [View.canon_unit_zero mid_hz]
    sl_unfold_words
    simp only [View.readAt_eq_ld, harg2.read_unread, harg3.read_unread, harg4.read_unread, harg5.read_unread, harg8.read_unread, View.ld_unit_zero (S := S512x256) mid_hz, View.ld_unit_zero (S := S512x1) mid_hz, View.ld_unit_zero (S := S1x512) mid_hz]
    rfl
  · iexists _; isplitr; swap; · iexact H7
    ipureintro
    rw [View.read_writes_eq_canon _ _ _ (fun y => ⟨_, List.mem_singleton_self _, View.mem_set_unit_zero mid_hz inb_S512x1_S512x1_0_0 y⟩)]
    rw [View.canon_unit_zero mid_hz]
    sl_unfold_words
    simp only [View.readAt_eq_ld, harg4.read_unread, harg5.read_unread, harg9.read_unread, View.ld_unit_zero (S := S512x1) mid_hz, View.ld_unit_zero (S := S1x512) mid_hz]
    rfl

end Cert.KernelIdeal.H

end
-- ==== Proof.KI.RunLast.lean ====
/-
  The body at the LAST key tile (not the first): it adds the key tile's row sums to the three accumulators and stores the query tile's per-row result, computed from the finished accumulators, over the whole output buffer.
-/
import proofs.«101262_j54296976556236_1_alg».proof.Proof.KI.Dats
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a last key tile that is not the first, run over whole memrefs: what its stores leave in the output buffer and
    in the three accumulators, as written pieces. -/
noncomputable def lastRun (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬isFirst i) (hc1 : isLast i)
    (x0 x1 : Vec F S512x256 .bf16) (x2 : Vec F S512x1 .i32) (x3 : Vec F S1x512 .i32) (a : Acc F) :
    Σ' (L6 : List (View.Piece (Elt F) S512x1 .f32)) (L7 : List (View.Piece (Elt F) S512x1 .f32)) (L8 : List (View.Piece (Elt F) S512x1 .f32)),
      { L9 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare a.1 ∗ owns (c : Thread nD τ) arg8 fullShare a.2.1 ∗ owns (c : Thread nD τ) arg9 fullShare a.2.2
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, ?_, ?_, fun E K => ?run⟩
  case run =>
    simp only [cc0__kernel_eq_skeleton]; unfold cc0__kernel_skel; simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3
    obtain rfl := harg7.eq_unread hf7; obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    isplitl [H8]; · iexists _; iexact H8
    iexists _; iexact H9

/-- The two offsets of every load and store of the body are zero. -/
theorem last_hz : (![0, 0] : Fin 2 → Nat) = fun _ => 0 :=
  funext fun a => match a with
    | ⟨0, _⟩ => rfl
    | ⟨1, _⟩ => rfl

/-- The stores into the output buffer cover it. -/
theorem last_cover6 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬isFirst i) (hc1 : isLast i)
    (x0 x1 : Vec F S512x256 .bf16) (x2 : Vec F S512x1 .i32) (x3 : Vec F S1x512 .i32) (a : Acc F) (y : S512x1.Idx) :
    ∃ pc ∈ (lastRun c i arg2 harg2 arg3 harg3 arg4 harg4 arg5 harg5 arg6 harg6 arg7 harg7 arg8 harg8 arg9 harg9 hc0 hc1 x0 x1 x2 x3 a).1, y ∈ pc.1.set :=
  View.cover_of_tiledL (lastRun c i arg2 harg2 arg3 harg3 arg4 harg4 arg5 harg5 arg6 harg6 arg7 harg7 arg8 harg8 arg9 harg9 hc0 hc1 x0 x1 x2 x3 a).1 S512x1.size (by sl_kernel_rfl) y

/-- The stores into the exponential sums' accumulator cover it. -/
theorem last_cover7 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬isFirst i) (hc1 : isLast i)
    (x0 x1 : Vec F S512x256 .bf16) (x2 : Vec F S512x1 .i32) (x3 : Vec F S1x512 .i32) (a : Acc F) (y : S512x1.Idx) :
    ∃ pc ∈ (lastRun c i arg2 harg2 arg3 harg3 arg4 harg4 arg5 harg5 arg6 harg6 arg7 harg7 arg8 harg8 arg9 harg9 hc0 hc1 x0 x1 x2 x3 a).2.1, y ∈ pc.1.set :=
  View.cover_of_tiledL (lastRun c i arg2 harg2 arg3 harg3 arg4 harg4 arg5 harg5 arg6 harg6 arg7 harg7 arg8 harg8 arg9 harg9 hc0 hc1 x0 x1 x2 x3 a).2.1 S512x1.size (by sl_kernel_rfl) y

/-- The stores into the positive-pair sums' accumulator cover it. -/
theorem last_cover8 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬isFirst i) (hc1 : isLast i)
    (x0 x1 : Vec F S512x256 .bf16) (x2 : Vec F S512x1 .i32) (x3 : Vec F S1x512 .i32) (a : Acc F) (y : S512x1.Idx) :
    ∃ pc ∈ (lastRun c i arg2 harg2 arg3 harg3 arg4 harg4 arg5 harg5 arg6 harg6 arg7 harg7 arg8 harg8 arg9 harg9 hc0 hc1 x0 x1 x2 x3 a).2.2.1, y ∈ pc.1.set :=
  View.cover_of_tiledL (lastRun c i arg2 harg2 arg3 harg3 arg4 harg4 arg5 harg5 arg6 harg6 arg7 harg7 arg8 harg8 arg9 harg9 hc0 hc1 x0 x1 x2 x3 a).2.2.1 S512x1.size (by sl_kernel_rfl) y

/-- The stores into the positive counts' accumulator cover it. -/
theorem last_cover9 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬isFirst i) (hc1 : isLast i)
    (x0 x1 : Vec F S512x256 .bf16) (x2 : Vec F S512x1 .i32) (x3 : Vec F S1x512 .i32) (a : Acc F) (y : S512x1.Idx) :
    ∃ pc ∈ (lastRun c i arg2 harg2 arg3 harg3 arg4 harg4 arg5 harg5 arg6 harg6 arg7 harg7 arg8 harg8 arg9 harg9 hc0 hc1 x0 x1 x2 x3 a).2.2.2.1, y ∈ pc.1.set :=
  View.cover_of_tiledL (lastRun c i arg2 harg2 arg3 harg3 arg4 harg4 arg5 harg5 arg6 harg6 arg7 harg7 arg8 harg8 arg9 harg9 hc0 hc1 x0 x1 x2 x3 a).2.2.2.1 S512x1.size (by sl_kernel_rfl) y

/-- What the one store into the exponential sums' accumulator leaves, read back: the sums before the point with the key tile's off-diagonal row sums added (the loads read the whole buffers). -/
theorem last_read7 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬isFirst i) (hc1 : isLast i)
    (x0 x1 : Vec F S512x256 .bf16) (x2 : Vec F S512x1 .i32) (x3 : Vec F S1x512 .i32) (a : Acc F) (v : View sig .tc .vmem S512x1 .f32) (f : v.ty.Contents (Elt F)) :
    v.read (Elt F) (v.writes (Elt F) f (lastRun c i arg2 harg2 arg3 harg3 arg4 harg4 arg5 harg5 arg6 harg6 arg7 harg7 arg8 harg8 arg9 harg9 hc0 hc1 x0 x1 x2 x3 a).2.1) = stepE i x0 x1 a.1 := by
  rw [View.read_writes_eq_canon _ _ _ (last_cover7 c i arg2 harg2 arg3 harg3 arg4 harg4 arg5 harg5 arg6 harg6 arg7 harg7 arg8 harg8 arg9 harg9 hc0 hc1 x0 x1 x2 x3 a)]
  unfold lastRun
  dsimp only
  sl_unfold_words
  dsimp only
  rw [View.canon_unit_zero (S := S512x1) last_hz]
  simp only [View.readAt_eq_ld, harg2.read_unread, harg3.read_unread, harg4.read_unread, harg5.read_unread, harg7.read_unread, harg8.read_unread, harg9.read_unread,
    View.readCov_unit_zero (S := S512x1) _ last_hz,
    View.ld_unit_zero (S := S512x256) last_hz, View.ld_unit_zero (S := S512x1) last_hz, View.ld_unit_zero (S := S1x512) last_hz]
  rfl

/-- What the one store into the positive-pair sums' accumulator leaves, read back. -/
theorem last_read8 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬isFirst i) (hc1 : isLast i)
    (x0 x1 : Vec F S512x256 .bf16) (x2 : Vec F S512x1 .i32) (x3 : Vec F S1x512 .i32) (a : Acc F) (v : View sig .tc .vmem S512x1 .f32) (f : v.ty.Contents (Elt F)) :
    v.read (Elt F) (v.writes (Elt F) f (lastRun c i arg2 harg2 arg3 harg3 arg4 harg4 arg5 harg5 arg6 harg6 arg7 harg7 arg8 harg8 arg9 harg9 hc0 hc1 x0 x1 x2 x3 a).2.2.1) = stepP i x0 x1 x2 x3 a.2.1 := by
  rw [View.read_writes_eq_canon _ _ _ (last_cover8 c i arg2 harg2 arg3 harg3 arg4 harg4 arg5 harg5 arg6 harg6 arg7 harg7 arg8 harg8 arg9 harg9 hc0 hc1 x0 x1 x2 x3 a)]
  unfold lastRun
  dsimp only
  sl_unfold_words
  dsimp only
  rw [View.canon_unit_zero (S := S512x1) last_hz]
  simp only [View.readAt_eq_ld, harg2.read_unread, harg3.read_unread, harg4.read_unread, harg5.read_unread, harg7.read_unread, harg8.read_unread, harg9.read_unread,
    View.readCov_unit_zero (S := S512x1) _ last_hz,
    View.ld_unit_zero (S := S512x256) last_hz, View.ld_unit_zero (S := S512x1) last_hz, View.ld_unit_zero (S := S1x512) last_hz]
  rfl

/-- What the one store into the positive counts' accumulator leaves, read back. -/
theorem last_read9 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬isFirst i) (hc1 : isLast i)
    (x0 x1 : Vec F S512x256 .bf16) (x2 : Vec F S512x1 .i32) (x3 : Vec F S1x512 .i32) (a : Acc F) (v : View sig .tc .vmem S512x1 .f32) (f : v.ty.Contents (Elt F)) :
    v.read (Elt F) (v.writes (Elt F) f (lastRun c i arg2 harg2 arg3 harg3 arg4 harg4 arg5 harg5 arg6 harg6 arg7 harg7 arg8 harg8 arg9 harg9 hc0 hc1 x0 x1 x2 x3 a).2.2.2.1) = stepC i x2 x3 a.2.2 := by
  rw [View.read_writes_eq_canon _ _ _ (last_cover9 c i arg2 harg2 arg3 harg3 arg4 harg4 arg5 harg5 arg6 harg6 arg7 harg7 arg8 harg8 arg9 harg9 hc0 hc1 x0 x1 x2 x3 a)]
  unfold lastRun
  dsimp only
  sl_unfold_words
  dsimp only
  rw [View.canon_unit_zero (S := S512x1) last_hz]
  simp only [View.readAt_eq_ld, harg2.read_unread, harg3.read_unread, harg4.read_unread, harg5.read_unread, harg7.read_unread, harg8.read_unread, harg9.read_unread,
    View.readCov_unit_zero (S := S512x1) _ last_hz,
    View.ld_unit_zero (S := S512x256) last_hz, View.ld_unit_zero (S := S512x1) last_hz, View.ld_unit_zero (S := S1x512) last_hz]
  rfl

/-- What the store over the whole output buffer leaves, read back: the per-row result of the three accumulators as this point's stores left them (each is loaded again after its store, and reads that store's payload). -/
theorem last_read6 (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬isFirst i) (hc1 : isLast i)
    (x0 x1 : Vec F S512x256 .bf16) (x2 : Vec F S512x1 .i32) (x3 : Vec F S1x512 .i32) (a : Acc F) (v : View sig .tc .vmem S512x1 .f32) (f : v.ty.Contents (Elt F)) :
    v.read (Elt F) (v.writes (Elt F) f (lastRun c i arg2 harg2 arg3 harg3 arg4 harg4 arg5 harg5 arg6 harg6 arg7 harg7 arg8 harg8 arg9 harg9 hc0 hc1 x0 x1 x2 x3 a).1) = outRow (stepE i x0 x1 a.1) (stepP i x0 x1 x2 x3 a.2.1) (stepC i x2 x3 a.2.2) := by
  rw [View.read_writes_eq_canon _ _ _ (last_cover6 c i arg2 harg2 arg3 harg3 arg4 harg4 arg5 harg5 arg6 harg6 arg7 harg7 arg8 harg8 arg9 harg9 hc0 hc1 x0 x1 x2 x3 a)]
  unfold lastRun
  dsimp only
  sl_unfold_words
  dsimp only
  rw [View.canon_unit_zero (S := S512x1) last_hz]
  simp only [View.readAt_eq_ld, harg2.read_unread, harg3.read_unread, harg4.read_unread, harg5.read_unread, harg7.read_unread, harg8.read_unread, harg9.read_unread,
    View.readCov_unit_zero (S := S512x1) _ last_hz,
    View.ld_unit_zero (S := S512x256) last_hz, View.ld_unit_zero (S := S512x1) last_hz, View.ld_unit_zero (S := S1x512) last_hz]
  rfl

/-- The body at a last key tile that is not the first, in closed form: from the accumulators at `a` it leaves them at
    the point's updates of `a`, the inputs as they were, and the output buffer at the per-row result of the updated accumulators. -/
theorem run_last (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬isFirst i) (hc1 : isLast i)
    (x0 x1 : Vec F S512x256 .bf16) (x2 : Vec F S512x1 .i32) (x3 : Vec F S1x512 .i32) (a : Acc F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ owns (c : Thread nD τ) arg7 fullShare a.1 ∗ owns (c : Thread nD τ) arg8 fullShare a.2.1 ∗ owns (c : Thread nD τ) arg9 fullShare a.2.2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (outRow (stepE i x0 x1 a.1) (stepP i x0 x1 x2 x3 a.2.1) (stepC i x2 x3 a.2.2))
            ∗ owns (c : Thread nD τ) arg7 fullShare (stepE i x0 x1 a.1)
            ∗ owns (c : Thread nD τ) arg8 fullShare (stepP i x0 x1 x2 x3 a.2.1)
            ∗ owns (c : Thread nD τ) arg9 fullShare (stepC i x2 x3 a.2.2)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  iintro ⟨H0, H1, H2, H3, H6, H7, H8, H9, Hk⟩
  iapply ((lastRun c i arg2 harg2 arg3 harg3 arg4 harg4 arg5 harg5 arg6 harg6 arg7 harg7 arg8 harg8 arg9 harg9 hc0 hc1 x0 x1 x2 x3 a).2.2.2.2 E K)
  isplitl [H0]; · iexact H0
  isplitl [H1]; · iexact H1
  isplitl [H2]; · iexact H2
  isplitl [H3]; · iexact H3
  isplitl [H6]; · iexact H6
  isplitl [H7]; · iexact H7
  isplitl [H8]; · iexact H8
  isplitl [H9]; · iexact H9
  iintro ⟨H0, H1, H2, H3, ⟨%e6, H6⟩, ⟨%e7, H7⟩, ⟨%e8, H8⟩, ⟨%e9, H9⟩⟩
  iapply Hk
  isplitl [H0]; · iexact H0
  isplitl [H1]; · iexact H1
  isplitl [H2]; · iexact H2
  isplitl [H3]; · iexact H3
  isplitl [H6]
  · unfold owns; iexists _; isplitr
    swap; · iexact H6
    ipureintro; exact last_read6 c i arg2 harg2 arg3 harg3 arg4 harg4 arg5 harg5 arg6 harg6 arg7 harg7 arg8 harg8 arg9 harg9 hc0 hc1 x0 x1 x2 x3 a _ _
  isplitl [H7]
  · unfold owns; iexists _; isplitr
    swap; · iexact H7
    ipureintro; exact last_read7 c i arg2 harg2 arg3 harg3 arg4 harg4 arg5 harg5 arg6 harg6 arg7 harg7 arg8 harg8 arg9 harg9 hc0 hc1 x0 x1 x2 x3 a _ _
  isplitl [H8]
  · unfold owns; iexists _; isplitr
    swap; · iexact H8
    ipureintro; exact last_read8 c i arg2 harg2 arg3 harg3 arg4 harg4 arg5 harg5 arg6 harg6 arg7 harg7 arg8 harg8 arg9 harg9 hc0 hc1 x0 x1 x2 x3 a _ _
  unfold owns; iexists _; isplitr
  swap; · iexact H9
  ipureintro; exact last_read9 c i arg2 harg2 arg3 harg3 arg4 harg4 arg5 harg5 arg6 harg6 arg7 harg7 arg8 harg8 arg9 harg9 hc0 hc1 x0 x1 x2 x3 a _ _

end Cert.KernelIdeal.H

end
-- ==== Proof.KI.Body.lean ====
/-
  The body obligation at every grid point, from the three runs of the body (a first key tile, a middle one,
  the last): the inputs' staging buffers hold their blocks; which run applies is decided by the point modulo 16;
  the region invariant hands the body the three accumulators at what the point before left (at anything before the
  first point, which is a first key tile and resets them) and takes them back at this point's values; the output
  window is idle except at a last key tile, where its buffer takes the query tile's result.
-/
import proofs.«101262_j54296976556236_1_alg».proof.Proof.KI.RunFirst
import proofs.«101262_j54296976556236_1_alg».proof.Proof.KI.RunMid
import proofs.«101262_j54296976556236_1_alg».proof.Proof.KI.RunLast

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h0 : t.val % 16 = 0
  · have hF : isFirst (grid0.coords t) := (isFirst_iff t).mpr h0
    have hL : ¬isLast (grid0.coords t) := fun h => by have := (isLast_iff t).mp h; omega
    rw [Dat.leavesExact_idle (dats m 0 c) 4 t (idle4 t hL) (noFlush4 t hL)]
    rw [accAt_first m c t h0]
    dsimp only [stepAll]
    by_cases hz : t.val = 0
    · rw [PhiS_castSucc m c t, PhiS_zero m c _ _ hz, PhiA_eq]
      iintro ⟨⟨⟨HE, HP, HC⟩, Hg⟩, Ho, ⟨%d0, H0⟩, ⟨%d1, H1⟩, ⟨%d2, H2⟩, ⟨%d3, H3⟩, ⟨%d4, H4⟩⟩
      iapply (run_first c (grid0.coords t) _ _ _ _ _ _ _ _ _ _ _ _ _ _ _ _ hF hL (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HE]; · iexact HE
      isplitl [HP]; · iexact HP
      isplitl [HC]; · iexact HC
      iintro ⟨H0, H1, H2, H3, H4, HE, HP, HC⟩
      isplitl [HE HP HC Hg]
      · isplitr [Hg]
        · isplitl [HE]; · iexact HE
          isplitl [HP]; · iexact HP
          iexact HC
        · iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HE, HP, HC⟩, Hg⟩, Ho, ⟨%d0, H0⟩, ⟨%d1, H1⟩, ⟨%d2, H2⟩, ⟨%d3, H3⟩, ⟨%d4, H4⟩⟩
      iapply (run_first c (grid0.coords t) _ _ _ _ _ _ _ _ _ _ _ _ _ _ _ _ hF hL (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HE]; · iexists _; iexact HE
      isplitl [HP]; · iexists _; iexact HP
      isplitl [HC]; · iexists _; iexact HC
      iintro ⟨H0, H1, H2, H3, H4, HE, HP, HC⟩
      isplitl [HE HP HC Hg]
      · isplitr [Hg]
        · isplitl [HE]; · iexact HE
          isplitl [HP]; · iexact HP
          iexact HC
        · iexact Hg
      isplitl [Ho]; · iexact Ho
      isplitl [H0]; · iexact H0
      isplitl [H1]; · iexact H1
      isplitl [H2]; · iexact H2
      isplitl [H3]; · iexact H3
      iexists _; iexact H4
  · have hF : ¬isFirst (grid0.coords t) := fun h => h0 ((isFirst_iff t).mp h)
    have hz : t.val ≠ 0 := fun h => h0 (by rw [h])
    by_cases h1 : t.val % 16 = 15
    · have hL : isLast (grid0.coords t) := (isLast_iff t).mpr h1
      rw [show (dats m 0 c).leavesExact 4 t = owns (c : Thread nD τ) (ms4 t) fullShare ((dats m 0 c).after 4 t) from by
        unfold Dat.leavesExact; rw [live4 t hL], after4]
      rw [accAt_next m c t h0]
      dsimp only [stepAll]
      rw [PhiS_castSucc m c t, PhiS_pos m c _ _ hz]
      iintro ⟨⟨⟨HE, HP, HC⟩, Hg⟩, Ho, ⟨%d0, H0⟩, ⟨%d1, H1⟩, ⟨%d2, H2⟩, ⟨%d3, H3⟩, ⟨%d4, H4⟩⟩
      iapply (run_last c (grid0.coords t) _ _ _ _ _ _ _ _ _ _ _ _ _ _ _ _ hF hL (iblk m c 0 t) (iblk m c 1 t) (iblk m c 2 t) (iblk m c 3 t)
        (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HE]; · iexact HE
      isplitl [HP]; · iexact HP
      isplitl [HC]; · iexact HC
      iintro ⟨H0, H1, H2, H3, H4, HE, HP, HC⟩
      isplitl [HE HP HC Hg]
      · isplitr [Hg]
        · isplitl [HE]; · iexact HE
          isplitl [HP]; · iexact HP
          iexact HC
        · iexact Hg
      isplitl [Ho]; · iexact Ho
      isplitl [H0]; · iexact H0
      isplitl [H1]; · iexact H1
      isplitl [H2]; · iexact H2
      isplitl [H3]; · iexact H3
      iexact H4
    · have hL : ¬isLast (grid0.coords t) := fun h => h1 ((isLast_iff t).mp h)
      rw [Dat.leavesExact_idle (dats m 0 c) 4 t (idle4 t hL) (noFlush4 t hL)]
      rw [accAt_next m c t h0]
      dsimp only [stepAll]
      rw [PhiS_castSucc m c t, PhiS_pos m c _ _ hz]
      iintro ⟨⟨⟨HE, HP, HC⟩, Hg⟩, Ho, ⟨%d0, H0⟩, ⟨%d1, H1⟩, ⟨%d2, H2⟩, ⟨%d3, H3⟩, ⟨%d4, H4⟩⟩
      iapply (run_mid c (grid0.coords t) _ _ _ _ _ _ _ _ _ _ _ _ _ _ _ _ hF hL (iblk m c 0 t) (iblk m c 1 t) (iblk m c 2 t) (iblk m c 3 t) _
        (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HE]; · iexact HE
      isplitl [HP]; · iexact HP
      isplitl [HC]; · iexact HC
      iintro ⟨H0, H1, H2, H3, H4, HE, HP, HC⟩
      isplitl [HE HP HC Hg]
      · isplitr [Hg]
        · isplitl [HE]; · iexact HE
          isplitl [HP]; · iexact HP
          iexact HC
        · iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.ΦA spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the frame kit's back: the accumulators' values are forgotten. -/
theorem hout (c : Dev nD) : (dats m 0 c).Φ (Fin.last cfg0.N) ⊢ (Pipeline.ΦA spec0 c : sProp 𝕄) := by
  have ht : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨⟨HE, HP, HC⟩, Hg⟩
  isplitr [Hg]
  · isplitl [HE]; · iexists _; iexact HE
    isplitl [HP]; · iexists _; iexact HP
    iexists _; iexact HC
  · iexact Hg

end Cert.KernelIdeal.H

end
-- ==== Proof.KI.Launch.lean ====
/-
  The launch: from the body obligation at every point, every weakly fair execution of @main ends, with the
  result buffer at the host sum of the output array's final contents and the two arguments unchanged.

  Two of the five windows read ONE array (the normalised rows: the query tile and the key tile are blocks of
  the same matrix), so the array's full share is dealt half to each window when the region is entered, and the
  halves are joined again after the region; the two host operations after the region touch only the output
  array and two buffers that bypass the region.
-/
import proofs.«101262_j54296976556236_1_alg».proof.Proof.KI.Dats

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the two host operations after the region make of the output array: its sum over all rows, from zero. -/
def tailVal (y : (⟨S8192x1, .f32⟩ : BufTy).Contents (Elt F)) : (⟨S_, .f32⟩ : BufTy).Contents (Elt F) :=
  Host.reduceAdd y (constant S_ .f32 0x00000000#32) reducesTo_S8192x1_S_d0_1 h_S_

/-! ## The arrays at the region's entry -/

/-- What the launch starts from: each staging cell owned at round 0, with one duty token per transfer the pipeline will issue. -/
def u₀ : UR sig nD τ := initOf (Pipeline.cells cfgs cellOf_inj) (Pipeline.launchToks cfgs cellOf_inj)

/-- The proof data's arrays window by window: the normalised rows' array held half by the query window and half by
    the key window, the two label arrays and the output array whole. -/
theorem arrays_chain (c : Dev nD) (Fv : (w : Fin cfg0.W) → Buf (Elt F) ((cfg0.win w).arr.view.loc (c.tc : Thread nD τ))) :
    ((dats m 0 c).arrays Fv : sProp 𝕄)
      = iprop((((c.tc : Thread nD τ).loc main_v3) ↦{fullShare.left} Fv 0) ∗ (((c.tc : Thread nD τ).loc main_v3) ↦{fullShare.right} Fv 1)
          ∗ (((c.tc : Thread nD τ).loc main_v4) ↦{fullShare} Fv 2) ∗ (((c.tc : Thread nD τ).loc main_v5) ↦{fullShare} Fv 3)
          ∗ (((c.tc : Thread nD τ).loc main_v6) ↦{fullShare} Fv 4)) := by
  unfold Dat.arrays
  rw [bigSep_W0, (arr_whole0 0).set_eq_univ, (arr_whole0 2).set_eq_univ, (arr_whole0 3).set_eq_univ, (arr_whole0 4).set_eq_univ]
  rfl

/-- The five windows are on four arrays. -/
theorem arrImage : (Finset.univ.image (Pipeline.arrRef spec0) : Finset (Ref sig .tc)) = {main_v3, main_v4, main_v5, main_v6} := by decide

/-- The buffers behind the arrays, one by one. -/
theorem arrBufs_chain (c : Dev nD) (Vv : (b : Ref sig .tc) → Buf (Elt F) ((c.tc : Thread nD τ).loc b)) :
    (Pipeline.arrBufs spec0 c Vv : sProp 𝕄)
      = iprop((((c.tc : Thread nD τ).loc main_v3) ↦{fullShare} Vv main_v3) ∗ (((c.tc : Thread nD τ).loc main_v4) ↦{fullShare} Vv main_v4)
          ∗ (((c.tc : Thread nD τ).loc main_v5) ↦{fullShare} Vv main_v5) ∗ (((c.tc : Thread nD τ).loc main_v6) ↦{fullShare} Vv main_v6)) := by
  unfold Pipeline.arrBufs
  rw [arrImage, bigSep_insert (by decide), bigSep_insert (by decide), bigSep_insert (by decide), bigSep_singleton]
  rfl

/-- The buffers behind the arrays, whole at the entry contents, make the proof data's arrays at entry: the normalised
    rows' full share is dealt half to the query window and half to the key window. -/
theorem hsplit (c : Dev nD) :
    (Pipeline.arrBufs spec0 c (V m c) : sProp 𝕄) ⊢ (dats m 0 c).arrays ((dats m 0 c).arrAt · 0) := by
  rw [arrays_chain, arrBufs_chain]
  iintro ⟨H3, H4, H5, H6⟩
  ihave H3 := (pointsTo_share (PosShare.mem_left_op_right fullShare)).1 $$ H3
  icases H3 with ⟨H3l, H3r⟩
  isplitl [H3l]; · iexact H3l
  isplitl [H3r]; · iexact H3r
  isplitl [H4]; · iexact H4
  isplitl [H5]; · iexact H5
  iexact H6

/-! ## The two host operations after the region -/

/-- The buffers the two last host operations touch: the zero, the output array, the result. -/
def tailS : Finset (DevRef τ sig) :=
  ({main_cst, main_v6, main_v7} : Finset (Ref sig .tc)).map ⟨Proc.devRef (sig := sig) .tc, Proc.devRef_injective _⟩

/-- The contents at the region's exit: the output array at its final contents, every other buffer as the region found it. -/
def Wx (c : Dev nD) : Valuation τ sig (Elt F) :=
  StableHlo.after [StableHlo.nullary main_v6 ((dats m 0 c).arrAt 4 cfg0.N)] (V0 m c)

/-- The contents after the two last host operations. -/
def Wfin (c : Dev nD) : Valuation τ sig (Elt F) := StableHlo.after (List.flatten [hostOps1]) (Wx m c)

theorem tail_sub : ∀ ops ∈ [(hostOps1 : List (HloOp τ sig (Elt F)))], ∀ op ∈ ops, op.bufs ⊆ tailS := by
  intro ops hops op hop
  obtain rfl := List.mem_singleton.mp hops
  simp only [hostOps1, List.mem_cons, List.not_mem_nil, or_false] at hop
  rcases hop with rfl | rfl
  · intro b hb
    rw [StableHlo.nullary_bufs, Finset.mem_singleton] at hb; subst hb
    exact Finset.mem_map_of_mem _ (by decide)
  · intro b hb
    rw [StableHlo.binary_bufs] at hb
    simp only [Finset.mem_insert, Finset.mem_singleton] at hb
    rcases hb with rfl | rfl | rfl <;> exact Finset.mem_map_of_mem _ (by decide)

theorem tail_fresh : ∀ ops ∈ [(hostOps1 : List (HloOp τ sig (Elt F)))], ∀ op ∈ ops, op.fresh = ∅ := by
  intro ops hops op hop
  obtain rfl := List.mem_singleton.mp hops
  exact List.forall_iff_forall_mem.mp hostOps1_fresh op hop

theorem Wx_v6 (c : Dev nD) : Wx m c (Proc.devRef .tc main_v6) = (dats m 0 c).arrAt 4 cfg0.N := by
  unfold Wx; after_results

theorem Wx_cst (c : Dev nD) : Wx m c (Proc.devRef .tc main_cst) = V m c main_cst := by
  unfold Wx; after_results

theorem Wx_v7 (c : Dev nD) : Wx m c (Proc.devRef .tc main_v7) = V m c main_v7 := by
  unfold Wx; after_results

/-- The output array is not written after the region. -/
theorem Wfin_v6 (c : Dev nD) : Wfin m c (Proc.devRef .tc main_v6) = (dats m 0 c).arrAt 4 cfg0.N := by
  unfold Wfin Wx; simp only [hostOps1, List.flatten_cons, List.flatten_nil, List.append_nil]; after_results

/-- The result buffer ends at the sum of the output array's final contents. -/
theorem Wfin_v7 (c : Dev nD) : Wfin m c (Proc.devRef .tc main_v7) = tailVal ((dats m 0 c).arrAt 4 cfg0.N) := by
  unfold Wfin Wx tailVal; simp only [hostOps1, List.flatten_cons, List.flatten_nil, List.append_nil]; after_results

/-- No host operation before the region writes an argument. -/
theorem V_arg0 (c : Dev nD) : V m c main_arg0 = m ((c.tc : Thread nD τ).loc main_arg0) := by
  dsimp only [V, V0]; simp only [hostOps0, hostOps0_1, List.flatten_cons, List.flatten_nil, List.append_nil, List.cons_append, List.nil_append]; after_results

theorem V_arg1 (c : Dev nD) : V m c main_arg1 = m ((c.tc : Thread nD τ).loc main_arg1) := by
  dsimp only [V, V0]; simp only [hostOps0, hostOps0_1, List.flatten_cons, List.flatten_nil, List.append_nil, List.cons_append, List.nil_append]; after_results

/-- The three buffers held at a valuation, one by one. -/
theorem held_tailS (c : Dev nD) (Wv : Valuation τ sig (Elt F)) :
    (StableHlo.held (c.tc : Thread nD τ) tailS Wv : sProp 𝕄)
      = iprop((((c.tc : Thread nD τ).loc main_cst) ↦{fullShare} Wv (Proc.devRef .tc main_cst))
          ∗ (((c.tc : Thread nD τ).loc main_v6) ↦{fullShare} Wv (Proc.devRef .tc main_v6))
          ∗ (((c.tc : Thread nD τ).loc main_v7) ↦{fullShare} Wv (Proc.devRef .tc main_v7))) := by
  unfold StableHlo.held tailS
  rw [bigSep_map, bigSep_insert (by decide), bigSep_insert (by decide), bigSep_singleton]
  rfl

/-- What the run ends holding of the buffers that bypass the region: the result and the two arguments. -/
def Zfin (c : Dev nD) : sProp 𝕄 :=
  iprop((((c.tc : Thread nD τ).loc main_v7) ↦{fullShare} tailVal ((dats m 0 c).arrAt 4 cfg0.N))
    ∗ (((c.tc : Thread nD τ).loc main_arg0) ↦{fullShare} m ((c.tc : Thread nD τ).loc main_arg0))
    ∗ (((c.tc : Thread nD τ).loc main_arg1) ↦{fullShare} m ((c.tc : Thread nD τ).loc main_arg1)))

set_option backward.isDefEq.respectTransparency.types false in
/-- From the region's exit the two host operations run within the zero, the output array and the result, the shared
    array's two halves and every other buffer riding along. -/
theorem htail (c : Dev nD) (Q' : PUnit → sProp 𝕄) :
    iprop((iprop((dats m 0 c).arrays ((dats m 0 c).arrAt · cfg0.N) ∗ Zfin m c) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have hWx := held_tailS c (Wx m c)
  rw [Wx_cst, Wx_v6, Wx_v7] at hWx
  have hWf := held_tailS c (Wfin m c)
  rw [Wfin_v6, Wfin_v7] at hWf
  rw [arrays_chain, unscopedRest0_eq, V_arg0, V_arg1, Zfin,
    show ([StableHlo.seq hostOps1] : List (Prog (TpuEff nD τ sig (Elt F) (Pipeline.Sig Λ₀ (Fin 1) fun p => ((cfgs p).toPCfg (Val := Elt F)).Adm) .tc) PUnit))
      = List.map StableHlo.seq [hostOps1] ++ [] from rfl]
  iintro ⟨Hk, Hb, ⟨HA0, HA1, HA2, HA3, HA4⟩, Ha0, Ha1, -, -, -, -, -, -, -, Hcst, Hv7⟩
  iapply (Pipeline.wp_seqs_then (fun q => (cfgs q).toPCfg (Val := Elt F)) defs₀ Variants.none c tailS [] [hostOps1] tail_sub tail_fresh (Wx m c)) $$ [Hb HA4 Hcst Hv7]
  · rw [hWx]
    isplitl [Hb]; · iexact Hb
    isplitl [Hcst]; · iexact Hcst
    isplitl [HA4]; · iexact HA4
    iexact Hv7
  iintro Hb'
  rw [Pipeline.chain_nil, wp_pure, show StableHlo.after [hostOps1].flatten (Wx m c) = Wfin m c from rfl, hWf]
  imodintro
  iapply Hk
  icases Hb' with ⟨-, -, HA4, Hv7⟩
  isplitl [HA0 HA1 HA2 HA3 HA4]
  · isplitl [HA0]; · iexact HA0
    isplitl [HA1]; · iexact HA1
    isplitl [HA2]; · iexact HA2
    isplitl [HA3]; · iexact HA3
    iexact HA4
  isplitl [Hv7]; · iexact Hv7
  isplitl [Ha0]; · iexact Ha0
  iexact Ha1

/-- One whole buffer read against the memory. -/
theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := UR sig nD τ) (Lvl := ℕ) ({()} : Finset Unit) (fun _ => ℓ) (fun _ => f) s'
  rw [bigSep_singleton] at h
  refine h.trans ?_
  iintro ⟨%hh, HSI⟩
  isplitr
  · ipureintro; exact hh () (Finset.mem_singleton_self _)
  · iexact HSI

/-! ## The launch -/

set_option backward.isDefEq.respectTransparency.types false in
theorem run_main
    (hbody : ∀ c, Pipeline.BodyObligationLoose (dats (F := F) m 0 c) (defs₀ (F := F)) Variants.none () Set.univ)
    (hin : ∀ c, (Pipeline.ΦA spec0 c : sProp 𝕄) ⊢ (dats m 0 c).Φ 0)
    (hout : ∀ c, (dats m 0 c).Φ (Fin.last cfg0.N) ⊢ (Pipeline.ΦA spec0 c : sProp 𝕄)) :
    θ_run defs (onTc (τ := τ) (main (F := F))) ⟨m, fun _ => 0, ρ⟩ (fun r => ∀ c : Dev nD,
      r.2.mem ((c.tc : Thread nD τ).loc main_v7) = tailVal ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  unfold defs
  exact Pipeline.θ_run_region_pf_tail (fun q => (cfgs q).toPCfg) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) hbody block_pos0 arr_whole0 stage_whole0 (fun _ _ => rfl)
    (G := fun _ => iprop(emp)) (u₀ := u₀)
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := Zfin m)
    (hX := fun c => by
      rw [Pipeline.unscopedRestP_none]
      iintro ⟨HU, -, -, -, Hp, -⟩; imodintro
      isplitl [Hp]; · iexists _; iexact Hp
      iexact HU)
    (hin := fun c => (show _ ⊢ (Pipeline.ΦA spec0 c : sProp 𝕄) by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => s.mem ((c.tc : Thread nD τ).loc main_v7) = tailVal ((dats m 0 c).arrAt 4 cfg0.N)
      ∧ s.mem ((c.tc : Thread nD τ).loc main_arg0) = m ((c.tc : Thread nD τ).loc main_arg0)
      ∧ s.mem ((c.tc : Thread nD τ).loc main_arg1) = m ((c.tc : Thread nD τ).loc main_arg1))
    (hY := fun c s' => by
      unfold Zfin
      iintro ⟨-, ⟨H7, H0, H1⟩, HSI⟩
      imodintro
      ihave H := (read_one _ _ s') $$ [H7 HSI]
      · isplitl [H7] <;> iassumption
      icases H with ⟨%h7, HSI⟩
      ihave H := (read_one _ _ s') $$ [H0 HSI]
      · isplitl [H0] <;> iassumption
      icases H with ⟨%h0, HSI⟩
      ihave H := (read_one _ _ s') $$ [H1 HSI]
      · isplitl [H1] <;> iassumption
      icases H with ⟨%h1, HSI⟩
      isplitr
      · ipureintro; exact ⟨h7, h0, h1⟩
      · iexact HSI)
    (hQ := fun s h c => (h c).2.2)

end Cert.KernelIdeal.H

end
-- ==== Proof.KI.Blocks.lean ====
/-
  The windows' blocks at a grid point, read off the arrays as the region finds them: point `t` is query tile `t / 16` and key tile `t % 16`; the query block is rows 512 (t / 16) .. of the normalised matrix, the key block rows 512 (t % 16) .., and the two label blocks are the same rows of the labels (a column and a row of one vector).
-/
import proofs.«101262_j54296976556236_1_alg».proof.Proof.KI.Dats
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.H

open Idealize.ShloMosaic Idealize.ShloMosaic.TcCoe Idealize.SL.Sem
open Idealize.ShloMosaic.ValueIdx
open Cert.KernelIdeal Cert.KernelIdeal.Gen

variable {F : FTy → Type} [FloatOps F]
variable (m : (ℓ : Loc nD τ sig) → Buf (Elt F) ℓ)

theorem coords0 : ∀ t : Fin cfg0.N, (grid0.coords t 0).val = t.val / 16 :=
  (by decide +kernel : ∀ t : Fin grid0.N, (grid0.coords t 0).val = t.val / 16)
theorem coords1 : ∀ t : Fin cfg0.N, (grid0.coords t 1).val = t.val % 16 :=
  (by decide +kernel : ∀ t : Fin grid0.N, (grid0.coords t 1).val = t.val % 16)

theorem N_eq : cfg0.N = 256 := N_0

/-- Row `512 q + a` of an 8192-row array, for a tile `q < 16` and a row `a` of the tile. -/
abbrev gRow (q : ℕ) (hq : q < 16) (a : Fin 512) : Fin 8192 := ⟨512 * q + a.val, by have := a.isLt; omega⟩

theorem tq_lt (t : Fin cfg0.N) : t.val / 16 < 16 := by have h : t.val < 256 := lt_of_lt_of_eq t.isLt N_eq; omega
theorem tk_lt (t : Fin cfg0.N) : t.val % 16 < 16 := Nat.mod_lt _ (by norm_num)

/-- The four input windows' block indices over the grid: the query tile or the key tile on the tiled axis, 0 on the other. -/
theorem idx0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem idx1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
theorem idx2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
theorem idx3 : ∀ t : Fin cfg0.N, win0_3.index t (0 : Fin 2) = 0 ∧ win0_3.index t (1 : Fin 2) = t.val % 16 :=
  (by decide +kernel : ∀ t : Fin grid0.N, win0_3.index t (0 : Fin 2) = 0 ∧ win0_3.index t (1 : Fin 2) = t.val % 16)

/-- The labels as a column, as the region finds them: the label vector in row-major order at shape [8192, 1]. -/
theorem V_v4 (c : Dev nD) :
    (V m c main_v4 : Vec F S8192x1 .i32) = shapeCast S8192x1 (m ((c.tc : Thread nD τ).loc main_arg1) : Vec F S8192 .i32) Facts₀.shapeCasts_S8192_S8192x1 := by
  dsimp only [V, V0]
  simp only [hostOps0, hostOps0_1, List.flatten_cons, List.flatten_nil, List.append_nil, List.cons_append, List.nil_append]
  after_results
  rfl

/-- The labels as a row: the label vector at shape [1, 8192]. -/
theorem V_v5 (c : Dev nD) :
    (V m c main_v5 : Vec F S1x8192 .i32) = shapeCast S1x8192 (m ((c.tc : Thread nD τ).loc main_arg1) : Vec F S8192 .i32) Facts₀.shapeCasts_S8192_S1x8192 := by
  dsimp only [V, V0]
  simp only [hostOps0, hostOps0_1, List.flatten_cons, List.flatten_nil, List.append_nil, List.cons_append, List.nil_append]
  after_results
  rfl

/-- The query block. -/
theorem blk0 (c : Dev nD) (t : Fin cfg0.N) (a : Fin 512) (k : Fin 256) :
    (iblk m c 0 t : Vec F S512x256 .bf16) (ix2 a k) = (V m c main_v3 : Vec F S8192x256 .bf16) (ix2 (gRow (t.val / 16) (tq_lt t) a) k) := by
  obtain ⟨e0, e1⟩ := idx0 t
  show V m c main_v3 (((cfg0.win 0).blk t).view.emb (ix2 a k)) = V m c main_v3 (ix2 (gRow (t.val / 16) (tq_lt t) a) k)
  refine congrArg _ ?_
  funext b; apply Fin.ext
  match b with
  | ⟨0, _⟩ => show win0_0.index t (0 : Fin 2) * 512 + 1 * a.val = 512 * (t.val / 16) + a.val; omega
  | ⟨1, _⟩ => show win0_0.index t (1 : Fin 2) * 256 + 1 * k.val = k.val; omega
/-- The key block. -/
theorem blk1 (c : Dev nD) (t : Fin cfg0.N) (a : Fin 512) (k : Fin 256) :
    (iblk m c 1 t : Vec F S512x256 .bf16) (ix2 a k) = (V m c main_v3 : Vec F S8192x256 .bf16) (ix2 (gRow (t.val % 16) (tk_lt t) a) k) := by
  obtain ⟨e0, e1⟩ := idx1 t
  show V m c main_v3 (((cfg0.win 1).blk t).view.emb (ix2 a k)) = V m c main_v3 (ix2 (gRow (t.val % 16) (tk_lt t) a) k)
  refine congrArg _ ?_
  funext b; apply Fin.ext
  match b with
  | ⟨0, _⟩ => show win0_1.index t (0 : Fin 2) * 512 + 1 * a.val = 512 * (t.val % 16) + a.val; omega
  | ⟨1, _⟩ => show win0_1.index t (1 : Fin 2) * 256 + 1 * k.val = k.val; omega
/-- The query rows' labels. -/
theorem blk2 (c : Dev nD) (t : Fin cfg0.N) (a : Fin 512) :
    (iblk m c 2 t : Vec F S512x1 .i32) (ix2 a 0) = (m ((c.tc : Thread nD τ).loc main_arg1) : Vec F S8192 .i32) (ix1 (gRow (t.val / 16) (tq_lt t) a)) := by
  obtain ⟨e0, e1⟩ := idx2 t
  show (V m c main_v4 : Vec F S8192x1 .i32) (((cfg0.win 2).blk t).view.emb (ix2 a 0)) = _
  refine (congrFun (V_v4 m c) _).trans (shapeCast_apply _ _ _ _ ?_)
  refine (Shape.rowMajor_val_one (d := ![8192]) (ix1 (gRow (t.val / 16) (tq_lt t) a))).trans ?_
  rw [Shape.rowMajor_val_two]
  show 512 * (t.val / 16) + a.val = (win0_2.index t (0 : Fin 2) * 512 + 1 * a.val) * 1 + (win0_2.index t (1 : Fin 2) * 1 + 1 * 0)
  omega
/-- The key rows' labels. -/
theorem blk3 (c : Dev nD) (t : Fin cfg0.N) (l : Fin 512) :
    (iblk m c 3 t : Vec F S1x512 .i32) (ix2 0 l) = (m ((c.tc : Thread nD τ).loc main_arg1) : Vec F S8192 .i32) (ix1 (gRow (t.val % 16) (tk_lt t) l)) := by
  obtain ⟨e0, e1⟩ := idx3 t
  show (V m c main_v5 : Vec F S1x8192 .i32) (((cfg0.win 3).blk t).view.emb (ix2 0 l)) = _
  refine (congrFun (V_v5 m c) _).trans (shapeCast_apply _ _ _ _ ?_)
  refine (Shape.rowMajor_val_one (d := ![8192]) (ix1 (gRow (t.val % 16) (tk_lt t) l))).trans ?_
  rw [Shape.rowMajor_val_two]
  show 512 * (t.val % 16) + l.val = (win0_3.index t (0 : Fin 2) * 1 + 1 * 0) * 8192 + (win0_3.index t (1 : Fin 2) * 512 + 1 * l.val)
  omega

end Cert.KernelIdeal.H

end
-- ==== Proof.Spec.lean ====
/-
  The two arrangements of the self-contrastive loss, as functions of ANY row-normalised matrix `n`
  (extended reals: a row of zero norm is divided 0 / 0, which reads as the bottom element, so a row may be
  all `⊥` and its similarities infinite) and of the labels.

  For an anchor row `i` write `s j` for its scaled similarity to row `j`, `S = Σ_{j ≠ i} exp (s j)`, `L = log S`
  and `P` for its positives (the other rows with its label, `c` of them).  One arrangement subtracts `L`
  inside the sum over `P`; the other sums `s` over `P` and subtracts `c · L` once.  On the extended reals the
  two agree for EVERY `s` and every `L`, so nothing about `S` is used: adding one positive `a` to a set of `c`
  turns `(a - L) + (Σ - c · L)` into `(a + Σ) - (c + 1) · L` — for a real `L` by moving the coercions out and
  ordinary algebra, for `L = ⊤` both sides are `⊥` (subtracting `⊤` is adding `⊥`, which absorbs), for `L = ⊥`
  both are `a + Σ + ⊤` (and `0 · ⊥ = 0` covers the first positive) —, and the sum over `P` follows by induction
  on `P`.  The scale is a product with 2 on one side and a quotient by 1/2 on the other, equal at every
  extended real.
-/
import Idealize.ShloMosaic.PureOps.Ideal
import Mathlib.Algebra.BigOperators.Group.Finset.Basic
import Mathlib.Data.EReal.Basic

noncomputable section

namespace Contrast

open Idealize.ShloMosaic

variable {ι κ : Type} [Fintype ι] [DecidableEq ι] [Fintype κ]

/-- The similarity of rows `i` and `j` before scaling. -/
def dot (n : ι → κ → EReal) (i j : ι) : EReal := ∑ k, n i k * n j k

/-- Row `j` is a positive of anchor `i`: the same label, another row. -/
def pos (lab : ι → BitVec 32) (i j : ι) : Prop := lab i = lab j ∧ i ≠ j

instance (lab : ι → BitVec 32) (i : ι) : DecidablePred (pos lab i) := fun j => by unfold pos; infer_instance

/-- How many positives anchor `i` has. -/
def cnt (lab : ι → BitVec 32) (i : ι) : ℕ := (Finset.univ.filter fun j => pos lab i j).card

/-- `Σ_{j ≠ i} exp (s i j)`. -/
def rowSum (s : ι → ι → EReal) (i : ι) : EReal := ∑ j, if i = j then 0 else Ideal.exp (s i j)

/-- The log-probabilities summed over the positives: `Σ_{j ∈ P} (s i j - log S_i)`. -/
def innerR (s : ι → ι → EReal) (lab : ι → BitVec 32) (i : ι) : EReal :=
  ∑ j, if pos lab i j then s i j - Ideal.log (rowSum s i) else 0

/-- The same with the logarithm taken out of the sum: `Σ_{j ∈ P} s i j - c_i · log S_i`. -/
def innerK (s : ι → ι → EReal) (lab : ι → BitVec 32) (i : ι) : EReal :=
  (∑ j, if pos lab i j then s i j else 0) - ((cnt lab i : ℝ) : EReal) * Ideal.log (rowSum s i)

/-- An anchor's term of the loss from its inner sum and its count of positives. -/
def perRow (inner : EReal) (c : ℕ) : EReal :=
  if 0 < c then Ideal.div (-inner) (((max c 1 : ℕ) : ℝ) : EReal) else 0

/-- The similarity divided by the temperature 1/2, -/
def simR (n : ι → κ → EReal) (i j : ι) : EReal := Ideal.div (dot n i j) (Ideal.ofBits .f32 0x3F000000#32)
/-- or multiplied by 2. -/
def simK (n : ι → κ → EReal) (i j : ι) : EReal := dot n i j * Ideal.ofBits .f32 0x40000000#32

/-- The loss with the logarithm inside the sum over the positives, -/
def lossR (n : ι → κ → EReal) (lab : ι → BitVec 32) : EReal := ∑ i, perRow (innerR (simR n) lab i) (cnt lab i)
/-- and with it taken out. -/
def lossK (n : ι → κ → EReal) (lab : ι → BitVec 32) : EReal := ∑ i, perRow (innerK (simK n) lab i) (cnt lab i)

/-- The pattern of `2.0` denotes the real 2, -/
private theorem ofBits_two : Ideal.ofBits .f32 0x40000000#32 = ((2 : ℝ) : EReal) := by
  simp [Ideal.ofBits, Ideal.ieee, -EReal.coe_mul]; norm_num

/-- and that of `0.5` the real 1/2. -/
private theorem ofBits_half : Ideal.ofBits .f32 0x3F000000#32 = ((1 / 2 : ℝ) : EReal) := by
  simp [Ideal.ofBits, Ideal.ieee, -EReal.coe_mul]; norm_num

theorem sim_eq (n : ι → κ → EReal) : simK n = simR n := by
  funext i j
  unfold simK simR
  rw [ofBits_two, ofBits_half, Ideal.div_coe (by norm_num) (dot n i j)]
  norm_num

/-- One more positive: taking `L` from the new term and `c · L` from the rest is taking `(c + 1) · L` from the
    whole, at every extended real `L` (the infinities absorb on both sides alike). -/
private theorem step (a S L : EReal) (c : ℕ) :
    (a - L) + (S - ((c : ℝ) : EReal) * L) = (a + S) - (((c + 1 : ℕ) : ℝ) : EReal) * L := by
  have hc1 : (0 : ℝ) < ((c + 1 : ℕ) : ℝ) := by exact_mod_cast Nat.succ_pos c
  induction L using EReal.rec with
  | bot =>
    rw [EReal.coe_mul_bot_of_pos hc1]
    rcases Nat.eq_zero_or_pos c with h0 | hpos
    · subst h0
      rw [Nat.cast_zero, EReal.coe_zero, zero_mul, sub_zero, sub_eq_add_neg, sub_eq_add_neg, EReal.neg_bot,
        add_right_comm]
    · have hc : (0 : ℝ) < (c : ℝ) := by exact_mod_cast hpos
      rw [EReal.coe_mul_bot_of_pos hc, sub_eq_add_neg, sub_eq_add_neg, sub_eq_add_neg, EReal.neg_bot,
        add_add_add_comm, EReal.top_add_top]
  | top =>
    rw [EReal.coe_mul_top_of_pos hc1, sub_eq_add_neg a, sub_eq_add_neg (a + S), EReal.neg_top, EReal.add_bot,
      EReal.add_bot, EReal.bot_add]
  | coe l =>
    rw [← EReal.coe_mul, ← EReal.coe_mul, sub_eq_add_neg, sub_eq_add_neg, sub_eq_add_neg, ← EReal.coe_neg,
      ← EReal.coe_neg, ← EReal.coe_neg, add_add_add_comm, ← EReal.coe_add]
    congr 2
    push_cast
    ring

/-- Over any finite set of positives the two arrangements agree, whatever `L` is. -/
private theorem sum_sub (P : Finset ι) (f : ι → EReal) (L : EReal) :
    (∑ j ∈ P, f j) - ((P.card : ℝ) : EReal) * L = ∑ j ∈ P, (f j - L) := by
  induction P using Finset.induction_on with
  | empty => simp
  | insert a P ha ih =>
    rw [Finset.sum_insert ha, Finset.sum_insert ha, Finset.card_insert_of_notMem ha, ← ih, step]

theorem inner_eq (s : ι → ι → EReal) (lab : ι → BitVec 32) (i : ι) : innerK s lab i = innerR s lab i := by
  unfold innerK innerR cnt
  rw [← Finset.sum_filter, ← Finset.sum_filter]
  exact sum_sub _ _ _

/-- The two arrangements are one function of the normalised rows and the labels. -/
theorem loss_eq (n : ι → κ → EReal) (lab : ι → BitVec 32) : lossK n lab = lossR n lab := by
  unfold lossK lossR
  rw [sim_eq]
  exact Finset.sum_congr rfl fun i _ => by rw [inner_eq]

end Contrast

end
-- ==== Proof.KI.ValDefs.lean ====
/-
  The kernel's value at the extended reals, in the vocabulary of the specification: the normalised rows `nK` and the labels `labK` as the region finds them, and the three per-pair terms the accumulators sum: for anchor row `r` and row `j`, the off-diagonal exponential of their scaled similarity, the scaled similarity where `j` is a positive of `r`, and 1 where it is.
-/
import proofs.«101262_j54296976556236_1_alg».proof.Proof.KI.Blocks
import proofs.«101262_j54296976556236_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.H

open Idealize.ShloMosaic Idealize.ShloMosaic.TcCoe Idealize.SL.Sem
open Idealize.ShloMosaic.ValueIdx
open Cert.KernelIdeal Cert.KernelIdeal.Gen

variable (m : (ℓ : Loc nD τ sig) → Buf (Elt Ideal) ℓ)

/-- The normalised matrix the kernel's two row windows read. -/
abbrev nK (c : Dev nD) : Fin 8192 → Fin 256 → EReal := fun i k => (V m c main_v3 : Vec Ideal S8192x256 .bf16) (ix2 i k)
/-- The labels. -/
abbrev labK (c : Dev nD) : Fin 8192 → BitVec 32 := fun i => (m ((c.tc : Thread nD τ).loc main_arg1) : Vec Ideal S8192 .i32) (ix1 i)

/-- `exp` of the scaled similarity off the diagonal, 0 on it. -/
def eTerm (n : Fin 8192 → Fin 256 → EReal) (r j : Fin 8192) : EReal := if r = j then 0 else Ideal.exp (Contrast.simK n r j)
/-- The scaled similarity of a positive pair, else 0. -/
def pTerm (n : Fin 8192 → Fin 256 → EReal) (lab : Fin 8192 → BitVec 32) (r j : Fin 8192) : EReal :=
  if Contrast.pos lab r j then Contrast.simK n r j else 0
/-- 1 for a positive pair, else 0. -/
def cTerm (lab : Fin 8192 → BitVec 32) (r j : Fin 8192) : EReal := if Contrast.pos lab r j then 1 else 0

/-- The sum of `f` over the rows of the key tiles up to `kk`. -/
def upTo (kk : ℕ) (f : Fin 8192 → EReal) : EReal :=
  ∑ k' : Fin 16, if k'.val ≤ kk then ∑ l : Fin 512, f (gRow k'.val k'.isLt l) else 0

end Cert.KernelIdeal.H

end
-- ==== Proof.KI.PayA.lean ====
/-
  The three 512 x 512 tiles every update reads, at an entry (a, l): the scaled similarity of query row `a` and key row `l` (the matrix unit's product of the query block with the transposed key block, into a zero accumulator, times 2); whether the entry lies on the matrix's diagonal (global row 512 q + a equals global column 512 k + l); and whether it is a positive pair (equal labels, off the diagonal).
-/
import proofs.«101262_j54296976556236_1_alg».proof.Proof.KI.Dats
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.H

open Idealize.ShloMosaic Idealize.ShloMosaic.TcCoe Idealize.SL.Sem
open Idealize.ShloMosaic.ValueIdx
open Cert.KernelIdeal Cert.KernelIdeal.Gen

/-- The product's left operand is read on its row axis at the output's row … -/
theorem lhs_pay8_0 (j : S512x512.Idx) (q : dot_S512x256_S256x512_S512x512_1_0_0_1_n_n.contr.Idx) :
    (dot_S512x256_S256x512_S512x512_1_0_0_1_n_n.lhsIdx j q 0).val = (j 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
/-- … and on its column axis at the contraction position; … -/
theorem lhs_pay8_1 (j : S512x512.Idx) (q : dot_S512x256_S256x512_S512x512_1_0_0_1_n_n.contr.Idx) :
    (dot_S512x256_S256x512_S512x512_1_0_0_1_n_n.lhsIdx j q 1).val = (q ⟨0, by decide⟩).val :=
  dot_S512x256_S256x512_S512x512_1_0_0_1_n_n.lhsIdx_val_of_single rfl j q
/-- … the right operand on its row axis at the contraction position … -/
theorem rhs_pay8_0 (j : S512x512.Idx) (q : dot_S512x256_S256x512_S512x512_1_0_0_1_n_n.contr.Idx) :
    (dot_S512x256_S256x512_S512x512_1_0_0_1_n_n.rhsIdx j q 0).val = (q ⟨0, by decide⟩).val :=
  dot_S512x256_S256x512_S512x512_1_0_0_1_n_n.rhsIdx_val_of_single rfl j q
/-- … and on its column axis at the output's column. -/
theorem rhs_pay8_1 (j : S512x512.Idx) (q : dot_S512x256_S256x512_S512x512_1_0_0_1_n_n.contr.Idx) :
    (dot_S512x256_S256x512_S512x512_1_0_0_1_n_n.rhsIdx j q 1).val = (j 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- The matrix unit's product into a zero accumulator, at an entry: the sum over the 256 contraction positions. -/
theorem pay8_mm (y0 : FVec Ideal S512x256 .bf16) (y1 : FVec Ideal S256x512 .bf16) (a l : Fin 512) :
    matmul dot_S512x256_S256x512_S512x512_1_0_0_1_n_n none y0 y1 (constant (F := Ideal) S512x512 .f32 0x00000000#32) (ix2 a l)
      = ∑ k : Fin 256, y0 (ix2 a k) * y1 (ix2 k l) := by
  simp only [matmul]
  rw [Ideal.matmul_constant_zero_apply, ← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 a l) ((contrEquiv1 dot_S512x256_S256x512_S512x512_1_0_0_1_n_n 256 rfl rfl).symm k) = ix2 a k := funext fun b => Fin.ext (by
    match b with
    | ⟨0, _⟩ => exact lhs_pay8_0 _ _
    | ⟨1, _⟩ => exact (lhs_pay8_1 _ _).trans hk)
  have er : dot_S512x256_S256x512_S512x512_1_0_0_1_n_n.rhsIdx (ix2 a l) ((contrEquiv1 dot_S512x256_S256x512_S512x512_1_0_0_1_n_n 256 rfl rfl).symm k) = ix2 k l := funext fun b => Fin.ext (by
    match b with
    | ⟨0, _⟩ => exact (rhs_pay8_0 _ _).trans hk
    | ⟨1, _⟩ => exact rhs_pay8_1 _ _)
  rw [el, er]

/-- The scaled similarity tile. -/
theorem pay8_apply (x0 x1 : Vec Ideal S512x256 .bf16) (a l : Fin 512) :
    k0_pay8 (F := Ideal) x0 x1 (ix2 a l) = (∑ k : Fin 256, x0 (ix2 a k) * x1 (ix2 l k)) * Ideal.ofBits .f32 0x40000000#32 := by
  unfold k0_pay8
  rw [shapeCast_self, shapeCast_self]
  show matmul dot_S512x256_S256x512_S512x512_1_0_0_1_n_n none x0
        (transpose S256x512 [1, 0] x1 transposes_S512x256_p1_0_S256x512) (constant (F := Ideal) S512x512 .f32 0x00000000#32) (ix2 a l)
      * Ideal.ofBits .f32 0x40000000#32 = _
  rw [pay8_mm]
  refine congrArg (· * Ideal.ofBits .f32 0x40000000#32) (Finset.sum_congr rfl fun k _ => ?_)
  rw [transpose_apply [1, 0] x1 transposes_S512x256_p1_0_S256x512 (ix2 k l) (ix2 l k) (fun b => match b with
        | ⟨0, _⟩ => rfl
        | ⟨1, _⟩ => rfl)]

/-- The two global positions as 32-bit words: nothing wraps, so the words are equal exactly when the positions are. -/
theorem pay9_word (x y : Nat) (hx : x < 16) (hy : y < 16) (a l : Fin 512) :
    IntOp.cmpi .eq (IntOp.addi (Scalar.muli (BitVec.ofNat 32 x) 512#32) (BitVec.ofNat 32 a.val))
                   (IntOp.addi (Scalar.muli (BitVec.ofNat 32 y) 512#32) (BitVec.ofNat 32 l.val))
      = if 512 * x + a.val = 512 * y + l.val then 1#1 else 0#1 := by
  have ha := a.isLt
  have hl := l.isLt
  have e1 : IntOp.addi (Scalar.muli (BitVec.ofNat 32 x) 512#32) (BitVec.ofNat 32 a.val) = BitVec.ofNat 32 (512 * x + a.val) := by
    apply BitVec.eq_of_toNat_eq
    simp only [IntOp.addi, Scalar.muli, IntOp.muli, BitVec.toNat_add, BitVec.toNat_mul, BitVec.toNat_ofNat]
    omega
  have e2 : IntOp.addi (Scalar.muli (BitVec.ofNat 32 y) 512#32) (BitVec.ofNat 32 l.val) = BitVec.ofNat 32 (512 * y + l.val) := by
    apply BitVec.eq_of_toNat_eq
    simp only [IntOp.addi, Scalar.muli, IntOp.muli, BitVec.toNat_add, BitVec.toNat_mul, BitVec.toNat_ofNat]
    omega
  rw [e1, e2]
  by_cases h : 512 * x + a.val = 512 * y + l.val
  · rw [if_pos h, h]; simp [IntOp.cmpi]
  · rw [if_neg h]
    have hne : BitVec.ofNat 32 (512 * x + a.val) ≠ BitVec.ofNat 32 (512 * y + l.val) := by
      intro e
      have := congrArg BitVec.toNat e
      simp only [BitVec.toNat_ofNat] at this
      omega
    have hb : (BitVec.ofNat 32 (512 * x + a.val) == BitVec.ofNat 32 (512 * y + l.val)) = false := beq_eq_false_iff_ne.2 hne
    unfold IntOp.cmpi
    show BitVec.ofBool (BitVec.ofNat 32 (512 * x + a.val) == BitVec.ofNat 32 (512 * y + l.val)) = 0#1
    rw [hb]; rfl

/-- The diagonal's mask. -/
theorem pay9_apply (i : grid0.Coords) (a l : Fin 512) :
    k0_pay9 i (ix2 a l) = if 512 * (i 0).val + a.val = 512 * (i 1).val + l.val then 1#1 else 0#1 := by
  have h0 : (i 0).val < 16 := (i 0).isLt
  have h1 : (i 1).val < 16 := (i 1).isLt
  unfold k0_pay9
  show IntOp.cmpi .eq (IntOp.addi (Scalar.muli (BitVec.ofNat 32 (i 0).val) 512#32) (iota Kind.tc S512x512 32 [0] iota_S512x512_d0_w32 (ix2 a l)))
       (IntOp.addi (Scalar.muli (BitVec.ofNat 32 (i 1).val) 512#32) (iota Kind.tc S512x512 32 [1] iota_S512x512_d1_w32 (ix2 a l))) = _
  rw [iota_single_apply, iota_single_apply]
  exact pay9_word _ _ h0 h1 a l

/-- Two one-bit words: "equal labels" and "not (on the diagonal)". -/
theorem pay10_word (u v : BitVec 32) (D : Prop) [Decidable D] :
    IntOp.andi (IntOp.cmpi .eq u v) (IntOp.xori (if D then 1#1 else 0#1) 1#1) = if u = v ∧ ¬D then 1#1 else 0#1 := by
  by_cases huv : u = v
  · subst huv
    by_cases hD : D
    · rw [if_pos hD, if_neg (show ¬(u = u ∧ ¬D) from fun h => h.2 hD)]; simp [IntOp.andi, IntOp.xori, IntOp.cmpi]
    · rw [if_neg hD, if_pos (show u = u ∧ ¬D from ⟨rfl, hD⟩)]; simp [IntOp.andi, IntOp.xori, IntOp.cmpi]
  · rw [if_neg (show ¬(u = v ∧ ¬D) from fun h => huv h.1)]
    have hc : IntOp.cmpi .eq u v = 0#1 := by
      unfold IntOp.cmpi
      show BitVec.ofBool (u == v) = 0#1
      rw [beq_eq_false_iff_ne.2 huv]; rfl
    rw [hc]
    simp [IntOp.andi]

/-- The positive pairs' mask. -/
theorem pay10_apply (i : grid0.Coords) (x2 : Vec Ideal S512x1 .i32) (x3 : Vec Ideal S1x512 .i32) (a l : Fin 512) :
    k0_pay10 (F := Ideal) i x2 x3 (ix2 a l)
      = if x2 (ix2 a 0) = x3 (ix2 0 l) ∧ ¬(512 * (i 0).val + a.val = 512 * (i 1).val + l.val) then 1#1 else 0#1 := by
  unfold k0_pay10
  rw [shapeCast_self, shapeCast_self]
  show IntOp.andi (IntOp.cmpi .eq (broadcastTo S512x512 x2 broadcasts_S512x1_S512x512 (ix2 a l))
        (broadcastTo S512x512 x3 broadcasts_S1x512_S512x512 (ix2 a l))) (IntOp.xori (k0_pay9 i (ix2 a l)) 1#1) = _
  rw [broadcastTo_apply x2 broadcasts_S512x1_S512x512 (ix2 a l) (ix2 a 0) (fun b => match b with
        | ⟨0, _⟩ => rfl
        | ⟨1, _⟩ => rfl),
      broadcastTo_apply x3 broadcasts_S1x512_S512x512 (ix2 a l) (ix2 0 l) (fun b => match b with
        | ⟨0, _⟩ => rfl
        | ⟨1, _⟩ => rfl),
      pay9_apply]
  exact pay10_word _ _ _

end Cert.KernelIdeal.H

end
-- ==== Proof.KI.PayB.lean ====
/-
  One point's three updates and the query tile's result, read at a row `a` of the tile, as sums over the key tile's 512 rows `l` of the entries of the similarity tile `s a l`, masked by the diagonal and by the positive pairs.
-/
import proofs.«101262_j54296976556236_1_alg».proof.Proof.KI.PayA
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.H

open Idealize.ShloMosaic Idealize.ShloMosaic.TcCoe Idealize.SL.Sem
open Idealize.ShloMosaic.ValueIdx
open Cert.KernelIdeal Cert.KernelIdeal.Gen

/-- The scaled similarity of the tile's row `a` and the key tile's row `l`. -/
abbrev simT (x0 x1 : Vec Ideal S512x256 .bf16) (a l : Fin 512) : EReal :=
  (∑ k : Fin 256, x0 (ix2 a k) * x1 (ix2 l k)) * Ideal.ofBits .f32 0x40000000#32
/-- The entry (a, l) of the tile at grid point `i` lies on the matrix's diagonal. -/
abbrev onDiag (i : grid0.Coords) (a l : Fin 512) : Prop := 512 * (i 0).val + a.val = 512 * (i 1).val + l.val
/-- It is a positive pair. -/
abbrev isPos (i : grid0.Coords) (x2 : Vec Ideal S512x1 .i32) (x3 : Vec Ideal S1x512 .i32) (a l : Fin 512) : Prop :=
  x2 (ix2 a 0) = x3 (ix2 0 l) ∧ ¬onDiag i a l

/-- The word of 1.0 is the extended real 1. -/
theorem ofBits_one_f32 : Ideal.ofBits .f32 0x3F800000#32 = 1 := by
  simp [Ideal.ofBits, Ideal.ieee, -EReal.coe_mul]; norm_num

/-- A lane sum kept as a column, read at row `a`: the sum of the row's 512 entries. -/
theorem laneSum_apply (v : FVec Ideal S512x512 .f32) (a : Fin 512) :
    shapeCast S512x1 (multiReduction (F := Ideal) .add [1] S512 v 0x00000000#32 reduces_S512x512_S512 (.inl rfl) rfl) shapeCasts_S512_S512x1 (ix2 a 0)
      = ∑ l : Fin 512, v (ix2 a l) := by
  refine (shapeCast_apply _ shapeCasts_S512_S512x1 (ix2 a 0) (ix1 a) ?_).trans ?_
  · rw [Shape.rowMajor_val_two, Shape.rowMajor_val_one]; show a.val = a.val * 1 + 0; omega
  · refine (Ideal.multiReduction_add_single v _ reduces_S512x512_S512 (.inl rfl) rfl (ix1 a)).trans ?_
    refine Finset.sum_congr rfl fun l _ => congrArg v ?_
    funext d; match d with | ⟨0, _⟩ => rfl | ⟨1, _⟩ => rfl

theorem accZero_E (a : Fin 512) : (accZero (F := Ideal)).1 (ix2 a 0) = 0 := by
  show (k0_pay5 (F := Ideal)) (ix2 a 0) = 0
  unfold k0_pay5
  refine (congrFun (shapeCast_self _ _) _).trans ?_
  exact Ideal.ofBits_zero_f32
theorem accZero_P (a : Fin 512) : (accZero (F := Ideal)).2.1 (ix2 a 0) = 0 := by
  show (k0_pay6 (F := Ideal)) (ix2 a 0) = 0
  unfold k0_pay6
  refine (congrFun (shapeCast_self _ _) _).trans ?_
  exact Ideal.ofBits_zero_f32
theorem accZero_C (a : Fin 512) : (accZero (F := Ideal)).2.2 (ix2 a 0) = 0 := by
  show (k0_pay7 (F := Ideal)) (ix2 a 0) = 0
  unfold k0_pay7
  refine (congrFun (shapeCast_self _ _) _).trans ?_
  exact Ideal.ofBits_zero_f32

theorem stepE_apply (i : grid0.Coords) (x0 x1 : Vec Ideal S512x256 .bf16) (r : Vec Ideal S512x1 .f32) (a : Fin 512) :
    stepE (F := Ideal) i x0 x1 r (ix2 a 0)
      = r (ix2 a 0) + ∑ l : Fin 512, (if onDiag i a l then (0 : EReal) else Ideal.exp (simT x0 x1 a l)) := by
  show k0_pay1 (k0_pay11 i x0 x1 r) (ix2 a 0) = _
  unfold k0_pay1
  refine (congrFun (shapeCast_self _ _) _).trans ?_
  unfold k0_pay11
  refine (addf_apply _ _ _).trans ?_
  refine congrArg (r (ix2 a 0) + ·) ?_
  refine (laneSum_apply _ a).trans ?_
  refine Finset.sum_congr rfl fun l _ => ?_
  refine (select_apply _ _ _ _).trans ?_
  rw [pay9_apply]
  show Scalar.select (if onDiag i a l then 1#1 else 0#1) (Ideal.ofBits .f32 0x00000000#32) (Ideal.exp (k0_pay8 x0 x1 (ix2 a l))) = _
  rw [pay8_apply]
  by_cases h : onDiag i a l
  · rw [if_pos h, if_pos h, select_one]; exact Ideal.ofBits_zero_f32
  · rw [if_neg h, if_neg h, select_zero]

theorem stepP_apply (i : grid0.Coords) (x0 x1 : Vec Ideal S512x256 .bf16) (x2 : Vec Ideal S512x1 .i32) (x3 : Vec Ideal S1x512 .i32)
    (r : Vec Ideal S512x1 .f32) (a : Fin 512) :
    stepP (F := Ideal) i x0 x1 x2 x3 r (ix2 a 0)
      = r (ix2 a 0) + ∑ l : Fin 512, (if isPos i x2 x3 a l then simT x0 x1 a l else (0 : EReal)) := by
  show k0_pay2 (k0_pay8 x0 x1) (k0_pay10 i x2 x3) r (ix2 a 0) = _
  unfold k0_pay2
  refine (congrFun (shapeCast_self _ _) _).trans ?_
  refine (addf_apply _ _ _).trans ?_
  refine congrArg (r (ix2 a 0) + ·) ?_
  refine (laneSum_apply _ a).trans ?_
  refine Finset.sum_congr rfl fun l _ => ?_
  refine (select_apply _ _ _ _).trans ?_
  rw [pay10_apply, pay8_apply]
  show Scalar.select (if isPos i x2 x3 a l then 1#1 else 0#1) (simT x0 x1 a l) (Ideal.ofBits .f32 0x00000000#32) = _
  by_cases h : isPos i x2 x3 a l
  · rw [if_pos h, if_pos h, select_one]
  · rw [if_neg h, if_neg h, select_zero]; exact Ideal.ofBits_zero_f32

theorem stepC_apply (i : grid0.Coords) (x2 : Vec Ideal S512x1 .i32) (x3 : Vec Ideal S1x512 .i32) (r : Vec Ideal S512x1 .f32) (a : Fin 512) :
    stepC (F := Ideal) i x2 x3 r (ix2 a 0)
      = r (ix2 a 0) + ∑ l : Fin 512, (if isPos i x2 x3 a l then (1 : EReal) else 0) := by
  show k0_pay3 (k0_pay10 i x2 x3) r (ix2 a 0) = _
  unfold k0_pay3
  refine (congrFun (shapeCast_self _ _) _).trans ?_
  refine (addf_apply _ _ _).trans ?_
  refine congrArg (r (ix2 a 0) + ·) ?_
  refine (laneSum_apply _ a).trans ?_
  refine Finset.sum_congr rfl fun l _ => ?_
  show (((((k0_pay10 (F := Ideal) i x2 x3) (ix2 a l)).setWidth 32).toInt : ℝ) : EReal) = _
  rw [pay10_apply]
  show (((((if isPos i x2 x3 a l then 1#1 else 0#1) : BitVec 1).setWidth 32).toInt : ℝ) : EReal) = _
  by_cases h : isPos i x2 x3 a l
  · rw [if_pos h, if_pos h]
    have e : ((1#1 : BitVec 1).setWidth 32).toInt = 1 := by decide
    rw [e, Int.cast_one, EReal.coe_one]
  · rw [if_neg h, if_neg h]
    have e : ((0#1 : BitVec 1).setWidth 32).toInt = 0 := by decide
    rw [e, Int.cast_zero, EReal.coe_zero]

theorem outRow_apply (e p n : Vec Ideal S512x1 .f32) (a : Fin 512) :
    outRow (F := Ideal) e p n (ix2 a 0)
      = if 0 < n (ix2 a 0) then Ideal.div (0 - (p (ix2 a 0) - n (ix2 a 0) * Ideal.log (e (ix2 a 0)))) (max (n (ix2 a 0)) 1) else 0 := by
  show k0_pay4 n p e (ix2 a 0) = _
  unfold k0_pay4
  show Scalar.select (Ideal.cmp .ogt (n (ix2 a 0)) (Ideal.ofBits .f32 0x00000000#32))
      (Ideal.div (Ideal.ofBits .f32 0x00000000#32 - (p (ix2 a 0) - n (ix2 a 0) * Ideal.log (e (ix2 a 0)))) (max (n (ix2 a 0)) (Ideal.ofBits .f32 0x3F800000#32)))
      (Ideal.ofBits .f32 0x00000000#32) = _
  rw [Ideal.ofBits_zero_f32, ofBits_one_f32]
  unfold Ideal.cmp
  by_cases h : 0 < n (ix2 a 0)
  · rw [if_pos h]
    have e1 : BitVec.ofBool (decide (0 < n (ix2 a 0))) = 1#1 := by rw [decide_eq_true h]; rfl
    exact (congrArg (fun c => Scalar.select c _ _) e1).trans (select_one _ _)
  · rw [if_neg h]
    have e1 : BitVec.ofBool (decide (0 < n (ix2 a 0))) = 0#1 := by rw [decide_eq_false h]; rfl
    exact (congrArg (fun c => Scalar.select c _ _) e1).trans (select_zero _ _)

end Cert.KernelIdeal.H

end
-- ==== Proof.KI.AccInv.lean ====
/-
  The accumulators after grid point `t` (query tile `t / 16`, key tile `t % 16`), at row `a` of the tile: the sums of the three per-pair terms over the rows of the key tiles `0 .. t % 16`, for the anchor row `512 (t / 16) + a`. By induction on the point: a first key tile starts from zero, every other adds its tile to what the point before left.
-/
import proofs.«101262_j54296976556236_1_alg».proof.Proof.KI.ValDefs
import proofs.«101262_j54296976556236_1_alg».proof.Proof.KI.PayB
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Group.Finset.Basic
import Mathlib.Algebra.BigOperators.Group.Finset.Piecewise

set_option maxRecDepth 16384

noncomputable section

namespace Cert.KernelIdeal.H

open Idealize.ShloMosaic Idealize.ShloMosaic.TcCoe Idealize.SL.Sem
open Idealize.ShloMosaic.ValueIdx
open Cert.KernelIdeal Cert.KernelIdeal.Gen

variable (m : (ℓ : Loc nD τ sig) → Buf (Elt Ideal) ℓ)

/-! ## The sum over the key tiles, one tile at a time -/

/-- Up to the first key tile: that tile's rows. -/
theorem upTo_zero (f : Fin 8192 → EReal) : upTo 0 f = ∑ l : Fin 512, f (gRow 0 (by norm_num) l) := by
  unfold upTo
  have e : ∀ k' : Fin 16, (if k'.val ≤ 0 then ∑ l : Fin 512, f (gRow k'.val k'.isLt l) else 0)
      = if k' = (⟨0, by norm_num⟩ : Fin 16) then ∑ l : Fin 512, f (gRow k'.val k'.isLt l) else 0 := fun k' =>
    if_congr (by rw [Fin.ext_iff]; exact Nat.le_zero) rfl rfl
  rw [Finset.sum_congr rfl fun k' _ => e k', Finset.sum_ite_eq', if_pos (Finset.mem_univ _)]

/-- One more key tile: its rows added. -/
theorem upTo_succ (kk : ℕ) (h : kk + 1 < 16) (f : Fin 8192 → EReal) :
    upTo (kk + 1) f = upTo kk f + ∑ l : Fin 512, f (gRow (kk + 1) h l) := by
  unfold upTo
  have e : ∀ k' : Fin 16, (if k'.val ≤ kk + 1 then ∑ l : Fin 512, f (gRow k'.val k'.isLt l) else 0)
      = (if k'.val ≤ kk then ∑ l : Fin 512, f (gRow k'.val k'.isLt l) else 0)
        + (if k' = (⟨kk + 1, h⟩ : Fin 16) then ∑ l : Fin 512, f (gRow k'.val k'.isLt l) else 0) := fun k' => by
    by_cases h1 : k'.val ≤ kk
    · have h2 : ¬k' = (⟨kk + 1, h⟩ : Fin 16) := fun e => by
        have e' : k'.val = kk + 1 := congrArg Fin.val e
        omega
      have h3 : k'.val ≤ kk + 1 := by omega
      rw [if_pos h3, if_pos h1, if_neg h2, add_zero]
    · by_cases h2 : k' = (⟨kk + 1, h⟩ : Fin 16)
      · have h3 : k'.val ≤ kk + 1 := by rw [h2]
        rw [if_pos h3, if_neg h1, if_pos h2, zero_add]
      · have h3 : ¬k'.val ≤ kk + 1 := fun h3 => h2 (Fin.ext (by show k'.val = kk + 1; omega))
        rw [if_neg h3, if_neg h1, if_neg h2, add_zero]
  rw [Finset.sum_congr rfl fun k' _ => e k', Finset.sum_add_distrib, Finset.sum_ite_eq', if_pos (Finset.mem_univ _)]

/-- The same row, the tile's number written two ways. -/
theorem gRow_congr {q q' : ℕ} (e : q = q') (hq : q < 16) (hq' : q' < 16) (a : Fin 512) : gRow q hq a = gRow q' hq' a := by
  subst e; rfl

/-! ## One point's lane sums in the vocabulary of the specification -/

/-- The tile's entry is the scaled similarity of the two rows it stands for. -/
theorem simT_rows (n : Fin 8192 → Fin 256 → EReal) (x0 x1 : Vec Ideal S512x256 .bf16) (ra rl : Fin 512 → Fin 8192)
    (h0 : ∀ a k, x0 (ix2 a k) = n (ra a) k) (h1 : ∀ l k, x1 (ix2 l k) = n (rl l) k) (a l : Fin 512) :
    simT x0 x1 a l = Contrast.simK n (ra a) (rl l) := by
  unfold Contrast.simK Contrast.dot
  refine congrArg (· * Ideal.ofBits .f32 0x40000000#32) ?_
  exact Finset.sum_congr rfl fun k _ => by rw [h0, h1]

/-- A positive entry of the tile is a positive pair of rows. -/
theorem isPos_rows (lab : Fin 8192 → BitVec 32) (i : grid0.Coords) (x2 : Vec Ideal S512x1 .i32) (x3 : Vec Ideal S1x512 .i32)
    (ra rl : Fin 512 → Fin 8192)
    (h2 : ∀ a, x2 (ix2 a 0) = lab (ra a)) (h3 : ∀ l, x3 (ix2 0 l) = lab (rl l))
    (hd : ∀ a l, onDiag i a l ↔ ra a = rl l) (a l : Fin 512) :
    isPos i x2 x3 a l ↔ Contrast.pos lab (ra a) (rl l) := by
  unfold Contrast.pos
  show (x2 (ix2 a 0) = x3 (ix2 0 l) ∧ ¬onDiag i a l) ↔ _
  rw [h2, h3, hd]

theorem eSum_rows (n : Fin 8192 → Fin 256 → EReal) (i : grid0.Coords) (x0 x1 : Vec Ideal S512x256 .bf16)
    (ra rl : Fin 512 → Fin 8192)
    (h0 : ∀ a k, x0 (ix2 a k) = n (ra a) k) (h1 : ∀ l k, x1 (ix2 l k) = n (rl l) k)
    (hd : ∀ a l, onDiag i a l ↔ ra a = rl l) (a : Fin 512) :
    (∑ l : Fin 512, (if onDiag i a l then (0 : EReal) else Ideal.exp (simT x0 x1 a l)))
      = ∑ l : Fin 512, eTerm n (ra a) (rl l) := by
  refine Finset.sum_congr rfl fun l _ => ?_
  unfold eTerm
  exact if_congr (hd a l) rfl (congrArg Ideal.exp (simT_rows n x0 x1 ra rl h0 h1 a l))

theorem pSum_rows (n : Fin 8192 → Fin 256 → EReal) (lab : Fin 8192 → BitVec 32) (i : grid0.Coords)
    (x0 x1 : Vec Ideal S512x256 .bf16) (x2 : Vec Ideal S512x1 .i32) (x3 : Vec Ideal S1x512 .i32)
    (ra rl : Fin 512 → Fin 8192)
    (h0 : ∀ a k, x0 (ix2 a k) = n (ra a) k) (h1 : ∀ l k, x1 (ix2 l k) = n (rl l) k)
    (h2 : ∀ a, x2 (ix2 a 0) = lab (ra a)) (h3 : ∀ l, x3 (ix2 0 l) = lab (rl l))
    (hd : ∀ a l, onDiag i a l ↔ ra a = rl l) (a : Fin 512) :
    (∑ l : Fin 512, (if isPos i x2 x3 a l then simT x0 x1 a l else (0 : EReal)))
      = ∑ l : Fin 512, pTerm n lab (ra a) (rl l) := by
  refine Finset.sum_congr rfl fun l _ => ?_
  unfold pTerm
  exact if_congr (isPos_rows lab i x2 x3 ra rl h2 h3 hd a l) (simT_rows n x0 x1 ra rl h0 h1 a l) rfl

theorem cSum_rows (lab : Fin 8192 → BitVec 32) (i : grid0.Coords)
    (x2 : Vec Ideal S512x1 .i32) (x3 : Vec Ideal S1x512 .i32)
    (ra rl : Fin 512 → Fin 8192)
    (h2 : ∀ a, x2 (ix2 a 0) = lab (ra a)) (h3 : ∀ l, x3 (ix2 0 l) = lab (rl l))
    (hd : ∀ a l, onDiag i a l ↔ ra a = rl l) (a : Fin 512) :
    (∑ l : Fin 512, (if isPos i x2 x3 a l then (1 : EReal) else 0))
      = ∑ l : Fin 512, cTerm lab (ra a) (rl l) := by
  refine Finset.sum_congr rfl fun l _ => ?_
  unfold cTerm
  exact if_congr (isPos_rows lab i x2 x3 ra rl h2 h3 hd a l) rfl rfl

/-- At point `t` the tile's entry (a, l) is on the diagonal exactly when its two rows are one. -/
theorem onDiag_pt (t : Fin cfg0.N) (a l : Fin 512) :
    onDiag (grid0.coords t) a l ↔ gRow (t.val / 16) (tq_lt t) a = gRow (t.val % 16) (tk_lt t) l := by
  show 512 * (grid0.coords t 0).val + a.val = 512 * (grid0.coords t 1).val + l.val ↔ _
  rw [coords0, coords1, Fin.ext_iff]

/-! ## One point's updates -/

theorem stepE_pt (c : Dev nD) (t : Fin cfg0.N) (r : Vec Ideal S512x1 .f32) (a : Fin 512) :
    stepE (F := Ideal) (grid0.coords t) (iblk m c 0 t) (iblk m c 1 t) r (ix2 a 0)
      = r (ix2 a 0) + ∑ l : Fin 512, eTerm (nK m c) (gRow (t.val / 16) (tq_lt t) a) (gRow (t.val % 16) (tk_lt t) l) := by
  refine (stepE_apply _ _ _ _ a).trans (congrArg (r (ix2 a 0) + ·) ?_)
  exact eSum_rows (nK m c) (grid0.coords t) _ _ (gRow (t.val / 16) (tq_lt t)) (gRow (t.val % 16) (tk_lt t))
    (blk0 m c t) (blk1 m c t) (onDiag_pt t) a

theorem stepP_pt (c : Dev nD) (t : Fin cfg0.N) (r : Vec Ideal S512x1 .f32) (a : Fin 512) :
    stepP (F := Ideal) (grid0.coords t) (iblk m c 0 t) (iblk m c 1 t) (iblk m c 2 t) (iblk m c 3 t) r (ix2 a 0)
      = r (ix2 a 0) + ∑ l : Fin 512, pTerm (nK m c) (labK m c) (gRow (t.val / 16) (tq_lt t) a) (gRow (t.val % 16) (tk_lt t) l) := by
  refine (stepP_apply _ _ _ _ _ _ a).trans (congrArg (r (ix2 a 0) + ·) ?_)
  exact pSum_rows (nK m c) (labK m c) (grid0.coords t) _ _ _ _ (gRow (t.val / 16) (tq_lt t)) (gRow (t.val % 16) (tk_lt t))
    (blk0 m c t) (blk1 m c t) (blk2 m c t) (blk3 m c t) (onDiag_pt t) a

theorem stepC_pt (c : Dev nD) (t : Fin cfg0.N) (r : Vec Ideal S512x1 .f32) (a : Fin 512) :
    stepC (F := Ideal) (grid0.coords t) (iblk m c 2 t) (iblk m c 3 t) r (ix2 a 0)
      = r (ix2 a 0) + ∑ l : Fin 512, cTerm (labK m c) (gRow (t.val / 16) (tq_lt t) a) (gRow (t.val % 16) (tk_lt t) l) := by
  refine (stepC_apply _ _ _ _ a).trans (congrArg (r (ix2 a 0) + ·) ?_)
  exact cSum_rows (labK m c) (grid0.coords t) _ _ (gRow (t.val / 16) (tq_lt t)) (gRow (t.val % 16) (tk_lt t))
    (blk2 m c t) (blk3 m c t) (onDiag_pt t) a

/-! ## The induction on the point -/

theorem upTo_first (k : ℕ) (hk : k < 16) (h0 : k = 0) (f : Fin 8192 → EReal) :
    upTo k f = ∑ l : Fin 512, f (gRow k hk l) := by
  subst h0; exact upTo_zero f

theorem upTo_next (k : ℕ) (hk : k < 16) (h0 : ¬k = 0) (f : Fin 8192 → EReal) :
    upTo k f = upTo (k - 1) f + ∑ l : Fin 512, f (gRow k hk l) := by
  cases k with
  | zero => exact absurd rfl h0
  | succ kk => rw [Nat.add_sub_cancel]; exact upTo_succ kk hk f

/-- A quantity that a first key tile sets to its tile's sum and every other key tile adds its tile's sum to is, after
    point `n`, the sum over the key tiles `0 .. n % 16`. -/
theorem acc_ind (g : (n : ℕ) → n < cfg0.N → EReal) (f : (q : ℕ) → q < 16 → Fin 8192 → EReal)
    (hfirst : ∀ t : Fin cfg0.N, t.val % 16 = 0 →
      g t.val t.isLt = ∑ l : Fin 512, f (t.val / 16) (tq_lt t) (gRow (t.val % 16) (tk_lt t) l))
    (hnext : ∀ t : Fin cfg0.N, ¬t.val % 16 = 0 →
      g t.val t.isLt = g (t.val - 1) (Nat.lt_of_le_of_lt (Nat.sub_le _ _) t.isLt)
        + ∑ l : Fin 512, f (t.val / 16) (tq_lt t) (gRow (t.val % 16) (tk_lt t) l)) :
    ∀ (n : ℕ) (hn : n < cfg0.N), g n hn = upTo (n % 16) (f (n / 16) (tq_lt ⟨n, hn⟩)) := by
  have fc : ∀ (q q' : ℕ) (e : q = q') (hq : q < 16) (hq' : q' < 16), f q hq = f q' hq' := fun q q' e hq hq' => by
    subst e; rfl
  intro n
  induction n with
  | zero =>
    intro hn
    exact (hfirst ⟨0, hn⟩ rfl).trans (upTo_first _ (tk_lt ⟨0, hn⟩) rfl _).symm
  | succ n ih =>
    intro hn
    by_cases h : (n + 1) % 16 = 0
    · exact (hfirst ⟨n + 1, hn⟩ h).trans (upTo_first _ (tk_lt ⟨n + 1, hn⟩) h _).symm
    · refine (hnext ⟨n + 1, hn⟩ h).trans ?_
      refine Eq.trans ?_ (upTo_next _ (tk_lt ⟨n + 1, hn⟩) h _).symm
      refine congrArg (· + _) ?_
      have e1 : (n + 1) / 16 = n / 16 := by omega
      have e2 : (n + 1) % 16 - 1 = n % 16 := by omega
      show g n (Nat.lt_of_succ_lt hn) = upTo ((n + 1) % 16 - 1) (f ((n + 1) / 16) (tq_lt ⟨n + 1, hn⟩))
      rw [e2, fc _ _ e1 (tq_lt ⟨n + 1, hn⟩) (tq_lt ⟨n, Nat.lt_of_succ_lt hn⟩)]
      exact ih (Nat.lt_of_succ_lt hn)

theorem accE_inv (c : Dev nD) (t : Fin cfg0.N) (a : Fin 512) :
    (accAt (F := Ideal) m c t.val t.isLt).1 (ix2 a 0)
      = upTo (t.val % 16) (eTerm (nK m c) (gRow (t.val / 16) (tq_lt t) a)) := by
  refine acc_ind (fun n hn => (accAt (F := Ideal) m c n hn).1 (ix2 a 0)) (fun q hq => eTerm (nK m c) (gRow q hq a))
    (fun t h => ?_) (fun t h => ?_) t.val t.isLt
  · show (accAt (F := Ideal) m c t.val t.isLt).1 (ix2 a 0) = _
    rw [accAt_first m c t h]
    refine (stepE_pt m c t _ a).trans ?_
    rw [accZero_E, zero_add]
  · show (accAt (F := Ideal) m c t.val t.isLt).1 (ix2 a 0) = _
    rw [accAt_next m c t h]
    exact stepE_pt m c t _ a

theorem accP_inv (c : Dev nD) (t : Fin cfg0.N) (a : Fin 512) :
    (accAt (F := Ideal) m c t.val t.isLt).2.1 (ix2 a 0)
      = upTo (t.val % 16) (pTerm (nK m c) (labK m c) (gRow (t.val / 16) (tq_lt t) a)) := by
  refine acc_ind (fun n hn => (accAt (F := Ideal) m c n hn).2.1 (ix2 a 0))
    (fun q hq => pTerm (nK m c) (labK m c) (gRow q hq a)) (fun t h => ?_) (fun t h => ?_) t.val t.isLt
  · show (accAt (F := Ideal) m c t.val t.isLt).2.1 (ix2 a 0) = _
    rw [accAt_first m c t h]
    refine (stepP_pt m c t _ a).trans ?_
    rw [accZero_P, zero_add]
  · show (accAt (F := Ideal) m c t.val t.isLt).2.1 (ix2 a 0) = _
    rw [accAt_next m c t h]
    exact stepP_pt m c t _ a

theorem accC_inv (c : Dev nD) (t : Fin cfg0.N) (a : Fin 512) :
    (accAt (F := Ideal) m c t.val t.isLt).2.2 (ix2 a 0)
      = upTo (t.val % 16) (cTerm (labK m c) (gRow (t.val / 16) (tq_lt t) a)) := by
  refine acc_ind (fun n hn => (accAt (F := Ideal) m c n hn).2.2 (ix2 a 0))
    (fun q hq => cTerm (labK m c) (gRow q hq a)) (fun t h => ?_) (fun t h => ?_) t.val t.isLt
  · show (accAt (F := Ideal) m c t.val t.isLt).2.2 (ix2 a 0) = _
    rw [accAt_first m c t h]
    refine (stepC_pt m c t _ a).trans ?_
    rw [accZero_C, zero_add]
  · show (accAt (F := Ideal) m c t.val t.isLt).2.2 (ix2 a 0) = _
    rw [accAt_next m c t h]
    exact stepC_pt m c t _ a

end Cert.KernelIdeal.H

end
-- ==== Proof.KI.Final.lean ====
/-
  The output array after the region and the sum the host makes of it: row `r` of the array is written once, at the last key tile of its query tile, with the result computed from the finished accumulators, which are the sums over all 8192 rows; so the array is the per-anchor terms of the loss with the logarithm taken out of the sum over the positives, and its sum is that loss.
-/
import proofs.«101262_j54296976556236_1_alg».proof.Proof.KI.AccInv
import Idealize.ShloMosaic.Lib.ValueIdx
import Idealize.ShloMosaic.Lib.ValueLayout
import Idealize.ShloMosaic.Lib.Pipeline.Value
import Idealize.ShloMosaic.PureOps.Ideal.Laws
import Mathlib.Logic.Equiv.Fin.Basic
import Mathlib.Data.Fintype.BigOperators
import Mathlib.Algebra.BigOperators.Group.Finset.Defs
import Mathlib.Data.EReal.Basic

set_option maxRecDepth 16384

noncomputable section

namespace Cert.KernelIdeal.H

open Idealize.ShloMosaic Idealize.ShloMosaic.TcCoe Idealize.SL.Sem
open Idealize.ShloMosaic.ValueIdx
open Cert.KernelIdeal Cert.KernelIdeal.Gen

variable (m : (ℓ : Loc nD τ sig) → Buf (Elt Ideal) ℓ)

/-- The sum over all sixteen key tiles is the sum over all rows. -/
theorem upTo_all (f : Fin 8192 → EReal) : upTo 15 f = ∑ j : Fin 8192, f j := by
  unfold upTo
  have h : ∀ k' : Fin 16, (if k'.val ≤ 15 then ∑ l : Fin 512, f (gRow k'.val k'.isLt l) else 0)
      = ∑ l : Fin 512, f (gRow k'.val k'.isLt l) := fun k' => if_pos (by have := k'.isLt; omega)
  rw [Finset.sum_congr rfl fun k' _ => h k']
  rw [← Fintype.sum_prod_type']
  refine Fintype.sum_equiv (finProdFinEquiv : Fin 16 × Fin 512 ≃ Fin (16 * 512)) _ _ fun x => congrArg f (Fin.ext ?_)
  show 512 * x.1.val + x.2.val = x.2.val + 512 * x.1.val
  omega

/-! ## One row's result from its three finished sums -/

/-- Over any finite set, the sum of ones is its size. -/
theorem sum_one_card {ι : Type} (P : Finset ι) : (∑ j ∈ P, (1 : EReal)) = ((P.card : ℝ) : EReal) := by
  classical
  induction P using Finset.induction_on with
  | empty => rw [Finset.sum_empty, Finset.card_empty, Nat.cast_zero, EReal.coe_zero]
  | insert a P ha ih =>
    rw [Finset.sum_insert ha, ih, Finset.card_insert_of_notMem ha, Nat.cast_succ, EReal.coe_add, EReal.coe_one, add_comm]

/-- The count accumulator's sum is the number of positives. -/
theorem sum_cTerm (lab : Fin 8192 → BitVec 32) (r : Fin 8192) :
    (∑ j, cTerm lab r j) = ((Contrast.cnt lab r : ℝ) : EReal) := by
  unfold cTerm Contrast.cnt
  rw [← Finset.sum_filter]
  exact sum_one_card _

/-- The row's result from the three finished sums is the anchor's term of the loss. -/
theorem row_value (n : Fin 8192 → Fin 256 → EReal) (lab : Fin 8192 → BitVec 32) (r : Fin 8192) :
    (if 0 < (∑ j, cTerm lab r j) then
        Ideal.div (0 - ((∑ j, pTerm n lab r j) - (∑ j, cTerm lab r j) * Ideal.log (∑ j, eTerm n r j))) (max (∑ j, cTerm lab r j) 1)
      else 0)
      = Contrast.perRow (Contrast.innerK (Contrast.simK n) lab r) (Contrast.cnt lab r) := by
  rw [sum_cTerm]
  have hS : (∑ j, eTerm n r j) = Contrast.rowSum (Contrast.simK n) r := rfl
  have hP : (∑ j, pTerm n lab r j) = ∑ j, if Contrast.pos lab r j then Contrast.simK n r j else 0 := rfl
  rw [hS, hP]
  unfold Contrast.perRow Contrast.innerK
  have hpos : (0 : EReal) < ((Contrast.cnt lab r : ℝ) : EReal) ↔ 0 < Contrast.cnt lab r := by
    rw [EReal.coe_pos, Nat.cast_pos]
  have hmax : max (((Contrast.cnt lab r : ℕ) : ℝ) : EReal) 1 = (((max (Contrast.cnt lab r) 1 : ℕ) : ℝ) : EReal) := by
    rw [Nat.cast_max, Nat.cast_one, EReal.coe_strictMono.monotone.map_max, EReal.coe_one]
  rw [hmax, sub_eq_add_neg (0 : EReal), zero_add]
  exact if_congr hpos rfl rfl

/-! ## From the blocks to the array -/

/-- The output window's block indices over the grid: the query tile on the rows, 0 on the one column. -/
theorem out_idx : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

/-- What the output array ends holding: at row `r` the anchor's term of the loss. -/
abbrev lossRows (c : Dev nD) : S8192x1.Idx → EReal := fun i =>
  Contrast.perRow (Contrast.innerK (Contrast.simK (nK m c)) (labK m c) (i 0)) (Contrast.cnt (labK m c) (i 0))

/-- At a last key tile the query tile's result at row `a` is the term of the anchor row `512 (t / 16) + a`. -/
theorem outRow_value (c : Dev nD) (t : Fin cfg0.N) (h15 : t.val % 16 = 15) (a : Fin 512) :
    outRow (F := Ideal) (accAt m c t.val t.isLt).1 (accAt m c t.val t.isLt).2.1 (accAt m c t.val t.isLt).2.2 (ix2 a 0)
      = lossRows m c (ix2 (gRow (t.val / 16) (tq_lt t) a) 0) := by
  rw [outRow_apply, accE_inv, accP_inv, accC_inv, h15, upTo_all, upTo_all, upTo_all]
  exact row_value (nK m c) (labK m c) (gRow (t.val / 16) (tq_lt t) a)

/-- What a last key tile's point writes back is its block of that array. -/
theorem out_flushed (c : Dev nD) (t : Fin cfg0.N) (hf : (cfg0.win 4).flush t = true) :
    (dats (F := Ideal) m 0 c).flushed 4 t = ((cfg0.win 4).blk t).view.read (Elt Ideal) (lossRows m c) := by
  have h15 : t.val % 16 = 15 := (flush0_4 t).mp hf
  obtain ⟨e0, e1⟩ := out_idx t
  show (cfg0.win 4).cut (grid0.coords t) ((dats m 0 c).after 4 t) = _
  rw [after4]
  funext j
  have hj1 : (j 1).val < 1 := (j 1).isLt
  refine Eq.trans ?_ ((outRow_value m c t h15 (j 0)).trans ?_)
  · refine congrArg (outRow (F := Ideal) (accAt m c t.val t.isLt).1 (accAt m c t.val t.isLt).2.1 (accAt m c t.val t.isLt).2.2) ?_
    funext b; apply Fin.ext
    match b with
    | ⟨0, _⟩ => rfl
    | ⟨1, _⟩ => show (j 1).val = 0; omega
  · show lossRows m c _ = lossRows m c (((cfg0.win 4).blk t).view.emb j)
    refine congrArg (lossRows m c) ?_
    funext b; apply Fin.ext
    match b with
    | ⟨0, _⟩ => show 512 * (t.val / 16) + (j 0).val = win0_4.index t (0 : Fin 2) * 512 + 1 * (j 0).val; omega
    | ⟨1, _⟩ => show 0 = win0_4.index t (1 : Fin 2) * 1 + 1 * (j 1).val; omega

/-- An index of the array is in point `t`'s block iff each coordinate is in the block's range on its axis. -/
theorem out_mem_blk (t : Fin cfg0.N) (i : S8192x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v6).slice (win0_4.rect t)).set ↔ _
  rw [View.set_slice_whole, Rect.mem_set_unit]
  exact Iff.rfl

/-- Every row is in the block of its query tile's last point. -/
theorem out_cover (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  let t : Fin cfg0.N := ⟨16 * ((i 0).val / 512) + 15, by rw [N_eq]; omega⟩
  have htv : t.val = 16 * ((i 0).val / 512) + 15 := rfl
  obtain ⟨e0, e1⟩ := out_idx t
  refine ⟨t, (flush0_4 t).mpr (by omega), ?_⟩
  rw [out_mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1 ≤ (i 1).val ∧ (i 1).val < win0_4.index t (1 : Fin 2) * 1 + 1; omega

/-- The output array after the region. -/
theorem out_array (c : Dev nD) : (dats (F := Ideal) m 0 c).arrAt 4 cfg0.N = lossRows m c :=
  (dats (F := Ideal) m 0 c).arrAt_eq_of_cover 4 (lossRows m c) (out_flushed m c) out_cover

/-- Row `r` of the output array after the region. -/
theorem out_final (c : Dev nD) (r : Fin 8192) :
    ((dats (F := Ideal) m 0 c).arrAt 4 cfg0.N : Vec Ideal S8192x1 .f32) (ix2 r 0)
      = Contrast.perRow (Contrast.innerK (Contrast.simK (nK m c)) (labK m c) r) (Contrast.cnt (labK m c) r) :=
  congrFun (out_array m c) (ix2 r 0)

/-! ## The host's sum of the array -/

/-- The rows of the one-column array are its indices. -/
def rowEquiv : S8192x1.Idx ≃ Fin 8192 where
  toFun j := j 0
  invFun r := ix2 r 0
  left_inv j := by
    funext b
    match b with
    | ⟨0, _⟩ => rfl
    | ⟨1, _⟩ => exact Subsingleton.elim (α := Fin 1) _ _
  right_inv r := rfl

/-- The kernel's result is the loss with the logarithm taken out of the sum over the positives. -/
theorem k_value (c : Dev nD) :
    Host.reduceAdd (F := Ideal) ((dats (F := Ideal) m 0 c).arrAt 4 cfg0.N : (⟨S8192x1, .f32⟩ : BufTy).Contents (Elt Ideal)) (constant S_ .f32 0x00000000#32) reducesTo_S8192x1_S_d0_1 h_S_ = fun _ => Contrast.lossK (nK m c) (labK m c) := by
  rw [out_array m c]
  funext i
  simp only [Host.reduceAdd, Ideal.hostReduceAdd_def]
  refine (Ideal.hostReduceAdd_total reducesTo_S8192x1_S_d0_1 (fun b => b.elim0) _ _ i).trans ?_
  rw [constant_apply, Ideal.ofBits_zero_f32, zero_add]
  unfold Contrast.lossK
  exact Fintype.sum_equiv rowEquiv _ _ fun j => rfl

end Cert.KernelIdeal.H

end
-- ==== Proof.RefAfter.lean ====
/-
  The reference's sixty host operations, folded over the launch contents, leave in the result buffer the value
  the stages compute: every buffer is written once, by an operation whose operands were written before it and are
  written by no later one, so after the whole line each buffer holds its operation's function of what the operand
  buffers hold after the whole line; the stages' definitions compose the same functions in the same order.
  The proof keeps the sharing: one equation per buffer, each citing its operands' equations, never a composed term.
-/
import proofs.«101262_j54296976556236_1_alg».proof.Proof.RefReadP
import Idealize.ShloMosaic.Lib.Pipeline.Frame
import Mathlib.Data.List.Forall2

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## A line that writes each buffer once

`WritesEach l w`: operation number `k` of the line `l` writes the one buffer `w[k]`. Over such a line, a buffer not
among `w` keeps its contents; and if operation `k` is `y = f a b` with `a`, `b` not written from `k` on and `y` not
written after `k`, then after the WHOLE line `y` holds `f` of what `a` and `b` hold after the whole line. -/

/-- Operation number `k` of `l` writes exactly the buffer `w[k]`. -/
abbrev WritesEach (l : List (HloOp τ sig (Elt F))) (w : List (Ref sig .tc)) : Prop :=
  List.Forall₂ (fun op r => op.writes = ({Proc.devRef .tc r} : Finset (DevRef τ sig))) l w

/-- A buffer the line does not write keeps its contents. -/
theorem after_keep {l : List (HloOp τ sig (Elt F))} {w : List (Ref sig .tc)} (h : WritesEach l w)
    {r : Ref sig .tc} (hr : r ∉ w) (V : Valuation τ sig (Elt F)) :
    StableHlo.after l V (Proc.devRef .tc r) = V (Proc.devRef .tc r) := by
  induction h generalizing V with
  | nil => rfl
  | @cons op y l' w' hop _ ih =>
    rw [StableHlo.after_cons, ih (fun hm => hr (List.mem_cons_of_mem _ hm))]
    refine HloOp.result_of_not_mem _ _ ?_
    rw [hop, Finset.mem_singleton]
    exact devRef_ne_of_ne (fun e => hr (e ▸ List.mem_cons_self))

/-- The line run as its first `k` operations, then the rest. -/
theorem after_split (l : List (HloOp τ sig (Elt F))) (k : Nat) (V : Valuation τ sig (Elt F)) :
    StableHlo.after l V = StableHlo.after (l.drop k) (StableHlo.after (l.take k) V) := by
  rw [← StableHlo.after_append, List.take_append_drop]

/-- After operation `k` and the operations behind it, a buffer not written from `k` on holds what it held before. -/
theorem after_operand {l : List (HloOp τ sig (Elt F))} {w : List (Ref sig .tc)} (h : WritesEach l w) (k : Nat)
    {x : Ref sig .tc} (hx : x ∉ w.drop k) (V : Valuation τ sig (Elt F)) :
    StableHlo.after l V (Proc.devRef .tc x) = StableHlo.after (l.take k) V (Proc.devRef .tc x) := by
  rw [after_split l k V, after_keep (List.forall₂_drop k h) hx]

/-- After the whole line, the buffer operation `k` writes holds what that operation left there. -/
theorem after_result {l : List (HloOp τ sig (Elt F))} {w : List (Ref sig .tc)} (h : WritesEach l w) (k : Nat)
    {op : HloOp τ sig (Elt F)} (hk : l.drop k = op :: l.drop (k + 1))
    {y : Ref sig .tc} (hy : y ∉ w.drop (k + 1)) (V : Valuation τ sig (Elt F)) :
    StableHlo.after l V (Proc.devRef .tc y) = op.result (StableHlo.after (l.take k) V) (Proc.devRef .tc y) := by
  rw [after_split l k V, hk, StableHlo.after_cons, after_keep (List.forall₂_drop (k + 1) h) hy]

theorem after_nullary_at {l : List (HloOp τ sig (Elt F))} {w : List (Ref sig .tc)} (h : WritesEach l w)
    (V : Valuation τ sig (Elt F)) (k : Nat) {y : Ref sig .tc} {v : y.ty.Contents (Elt F)} {hy}
    (hk : l.drop k = nullary y v hy :: l.drop (k + 1)) (hyw : y ∉ w.drop (k + 1)) :
    StableHlo.after l V (Proc.devRef .tc y) = v := by
  rw [after_result h k hk hyw, nullary_result]

theorem after_unary_at {l : List (HloOp τ sig (Elt F))} {w : List (Ref sig .tc)} (h : WritesEach l w)
    (V : Valuation τ sig (Elt F)) (k : Nat) {x y : Ref sig .tc} {f : x.ty.Contents (Elt F) → y.ty.Contents (Elt F)} {hx hy}
    (hk : l.drop k = unary x y f hx hy :: l.drop (k + 1)) (hxw : x ∉ w.drop k) (hyw : y ∉ w.drop (k + 1)) :
    StableHlo.after l V (Proc.devRef .tc y) = f (StableHlo.after l V (Proc.devRef .tc x)) := by
  rw [after_result h k hk hyw, unary_result, after_operand h k hxw]

theorem after_binary_at {l : List (HloOp τ sig (Elt F))} {w : List (Ref sig .tc)} (h : WritesEach l w)
    (V : Valuation τ sig (Elt F)) (k : Nat) {a b y : Ref sig .tc}
    {f : a.ty.Contents (Elt F) → b.ty.Contents (Elt F) → y.ty.Contents (Elt F)} {ha hb hy}
    (hk : l.drop k = binary a b y f ha hb hy :: l.drop (k + 1)) (haw : a ∉ w.drop k) (hbw : b ∉ w.drop k)
    (hyw : y ∉ w.drop (k + 1)) :
    StableHlo.after l V (Proc.devRef .tc y)
      = f (StableHlo.after l V (Proc.devRef .tc a)) (StableHlo.after l V (Proc.devRef .tc b)) := by
  rw [after_result h k hk hyw, binary_result, after_operand h k haw, after_operand h k hbw]

theorem after_ternary_at {l : List (HloOp τ sig (Elt F))} {w : List (Ref sig .tc)} (h : WritesEach l w)
    (V : Valuation τ sig (Elt F)) (k : Nat) {p a b y : Ref sig .tc}
    {f : p.ty.Contents (Elt F) → a.ty.Contents (Elt F) → b.ty.Contents (Elt F) → y.ty.Contents (Elt F)} {hp ha hb hy}
    (hk : l.drop k = ternary p a b y f hp ha hb hy :: l.drop (k + 1)) (hpw : p ∉ w.drop k) (haw : a ∉ w.drop k)
    (hbw : b ∉ w.drop k) (hyw : y ∉ w.drop (k + 1)) :
    StableHlo.after l V (Proc.devRef .tc y)
      = f (StableHlo.after l V (Proc.devRef .tc p)) (StableHlo.after l V (Proc.devRef .tc a))
          (StableHlo.after l V (Proc.devRef .tc b)) := by
  rw [after_result h k hk hyw, ternary_result, after_operand h k hpw, after_operand h k haw, after_operand h k hbw]

-- TABLE BEGIN
/-- The buffers the 60 operations write, in program order. -/
abbrev wr : List (Ref sig .tc) :=
  [main_call0_v0, main_call0_cst, main_call0_v1, main_call0_v2, main_v0, main_v1, main_v2, main_v3,
   main_v4, main_cst, main_v5, main_v6, main_v7, main_v8, main_c, main_v9,
   main_v10, main_v11, main_v12, main_cst_0, main_call1_v0, main_call1_v1, main_v13, main_cst_1,
   main_v14, main_v15, main_v16, main_v17, main_v18, main_v19, main_v20, main_v21,
   main_v22, main_v23, main_v24, main_v25, main_v26, main_c_2, main_v27, main_cst_3,
   main_call2_v0, main_call2_v1, main_v28, main_cst_4, main_v29, main_c_5, main_v30, main_v31,
   main_v32, main_c_6, main_v33, main_v34, main_v35, main_v36, main_cst_7, main_call3_v0,
   main_call3_v1, main_v37, main_cst_8, main_v38]

/-- Operation number k writes exactly buffer number k of the list wr (each builder writes its result buffer). -/
theorem ops_writes : WritesEach (ValueP.ops (F := F)) wr := by
  repeat (first | exact List.Forall₂.nil | refine List.Forall₂.cons rfl ?_)

section Stages

variable (m : (ℓ : Loc nD τ sig) → Buf (Elt F) ℓ) (c : Dev nD)

local notation "Wf" => StableHlo.after (ValueP.ops (F := F)) (launchContents m c)

/-- No operation writes an argument: after the line it holds its launch contents. -/
theorem stage_main_arg0 : Wf (Proc.devRef .tc main_arg0) = m ((c.tc : Thread nD τ).loc main_arg0) := after_keep ops_writes (by decide) _
theorem stage_main_arg1 : Wf (Proc.devRef .tc main_arg1) = m ((c.tc : Thread nD τ).loc main_arg1) := after_keep ops_writes (by decide) _

theorem stage_main_call0_v0 : Wf (Proc.devRef .tc main_call0_v0) = ReadP.val_main_call0_v0 (F := F) (m ((c.tc : Thread nD τ).loc main_arg0)) :=
  (after_binary_at ops_writes _ 0 rfl (by decide) (by decide) (by decide)).trans (by
    rw [stage_main_arg0 m c]; unfold ReadP.val_main_call0_v0; rfl)
theorem stage_main_call0_cst : Wf (Proc.devRef .tc main_call0_cst) = ReadP.val_main_call0_cst (F := F) :=
  (after_nullary_at ops_writes _ 1 rfl (by decide)).trans rfl
theorem stage_main_call0_v1 : Wf (Proc.devRef .tc main_call0_v1) = ReadP.val_main_call0_v1 (F := F) (m ((c.tc : Thread nD τ).loc main_arg0)) :=
  (after_binary_at ops_writes _ 2 rfl (by decide) (by decide) (by decide)).trans (by
    rw [stage_main_call0_v0 m c, stage_main_call0_cst m c]; unfold ReadP.val_main_call0_v1; generalize ReadP.val_main_call0_v0 (F := F) _ = u0; generalize ReadP.val_main_call0_cst (F := F) = u1; rfl)
theorem stage_main_call0_v2 : Wf (Proc.devRef .tc main_call0_v2) = ReadP.val_main_call0_v2 (F := F) (m ((c.tc : Thread nD τ).loc main_arg0)) :=
  (after_unary_at ops_writes _ 3 rfl (by decide) (by decide)).trans (by
    rw [stage_main_call0_v1 m c]; unfold ReadP.val_main_call0_v2; generalize ReadP.val_main_call0_v1 (F := F) _ = u0; rfl)
theorem stage_main_v0 : Wf (Proc.devRef .tc main_v0) = ReadP.val_main_v0 (F := F) (m ((c.tc : Thread nD τ).loc main_arg0)) :=
  (after_unary_at ops_writes _ 4 rfl (by decide) (by decide)).trans (by
    rw [stage_main_call0_v2 m c]; unfold ReadP.val_main_v0; generalize ReadP.val_main_call0_v2 (F := F) _ = u0; rfl)
theorem stage_main_v1 : Wf (Proc.devRef .tc main_v1) = ReadP.val_main_v1 (F := F) (m ((c.tc : Thread nD τ).loc main_arg0)) :=
  (after_unary_at ops_writes _ 5 rfl (by decide) (by decide)).trans (by rw [stage_main_v0 m c]; rfl)
theorem stage_main_v2 : Wf (Proc.devRef .tc main_v2) = ReadP.val_main_v2 (F := F) (m ((c.tc : Thread nD τ).loc main_arg0)) :=
  (after_binary_at ops_writes _ 6 rfl (by decide) (by decide) (by decide)).trans (by rw [stage_main_arg0 m c, stage_main_v1 m c]; rfl)
theorem stage_main_v3 : Wf (Proc.devRef .tc main_v3) = ReadP.val_main_v3 (F := F) (m ((c.tc : Thread nD τ).loc main_arg0)) :=
  (after_unary_at ops_writes _ 7 rfl (by decide) (by decide)).trans (by rw [stage_main_v2 m c]; rfl)
theorem stage_main_v4 : Wf (Proc.devRef .tc main_v4) = ReadP.val_main_v4 (F := F) (m ((c.tc : Thread nD τ).loc main_arg0)) :=
  (after_binary_at ops_writes _ 8 rfl (by decide) (by decide) (by decide)).trans (by rw [stage_main_v2 m c, stage_main_v3 m c]; rfl)
theorem stage_main_cst : Wf (Proc.devRef .tc main_cst) = ReadP.val_main_cst (F := F) :=
  (after_nullary_at ops_writes _ 9 rfl (by decide)).trans rfl
theorem stage_main_v5 : Wf (Proc.devRef .tc main_v5) = ReadP.val_main_v5 (F := F) :=
  (after_unary_at ops_writes _ 10 rfl (by decide) (by decide)).trans (by rw [stage_main_cst m c]; rfl)
theorem stage_main_v6 : Wf (Proc.devRef .tc main_v6) = ReadP.val_main_v6 (F := F) (m ((c.tc : Thread nD τ).loc main_arg0)) :=
  (after_binary_at ops_writes _ 11 rfl (by decide) (by decide) (by decide)).trans (by rw [stage_main_v4 m c, stage_main_v5 m c]; rfl)
theorem stage_main_v7 : Wf (Proc.devRef .tc main_v7) = ReadP.val_main_v7 (F := F) :=
  (after_nullary_at ops_writes _ 12 rfl (by decide)).trans rfl
theorem stage_main_v8 : Wf (Proc.devRef .tc main_v8) = ReadP.val_main_v8 (F := F) :=
  (after_nullary_at ops_writes _ 13 rfl (by decide)).trans rfl
theorem stage_main_c : Wf (Proc.devRef .tc main_c) = ReadP.val_main_c (F := F) :=
  (after_nullary_at ops_writes _ 14 rfl (by decide)).trans rfl
theorem stage_main_v9 : Wf (Proc.devRef .tc main_v9) = ReadP.val_main_v9 (F := F) :=
  (after_unary_at ops_writes _ 15 rfl (by decide) (by decide)).trans (by rw [stage_main_c m c]; rfl)
theorem stage_main_v10 : Wf (Proc.devRef .tc main_v10) = ReadP.val_main_v10 (F := F) :=
  (after_binary_at ops_writes _ 16 rfl (by decide) (by decide) (by decide)).trans (by rw [stage_main_v7 m c, stage_main_v9 m c]; rfl)
theorem stage_main_v11 : Wf (Proc.devRef .tc main_v11) = ReadP.val_main_v11 (F := F) :=
  (after_binary_at ops_writes _ 17 rfl (by decide) (by decide) (by decide)).trans (by rw [stage_main_v10 m c, stage_main_v8 m c]; rfl)
theorem stage_main_v12 : Wf (Proc.devRef .tc main_v12) = ReadP.val_main_v12 (F := F) (m ((c.tc : Thread nD τ).loc main_arg0)) :=
  (after_unary_at ops_writes _ 18 rfl (by decide) (by decide)).trans (by rw [stage_main_v6 m c]; rfl)
theorem stage_main_cst_0 : Wf (Proc.devRef .tc main_cst_0) = ReadP.val_main_cst_0 (F := F) :=
  (after_nullary_at ops_writes _ 19 rfl (by decide)).trans rfl
theorem stage_main_call1_v0 : Wf (Proc.devRef .tc main_call1_v0) = ReadP.val_main_call1_v0 (F := F) :=
  (after_unary_at ops_writes _ 20 rfl (by decide) (by decide)).trans (by
    rw [stage_main_cst_0 m c]; unfold ReadP.val_main_call1_v0; generalize ReadP.val_main_cst_0 (F := F) = u0; rfl)
theorem stage_main_call1_v1 : Wf (Proc.devRef .tc main_call1_v1) = ReadP.val_main_call1_v1 (F := F) :=
  (after_unary_at ops_writes _ 21 rfl (by decide) (by decide)).trans (by
    rw [stage_main_call1_v0 m c]; unfold ReadP.val_main_call1_v1; generalize ReadP.val_main_call1_v0 (F := F) = u0; rfl)
theorem stage_main_v13 : Wf (Proc.devRef .tc main_v13) = ReadP.val_main_v13 (F := F) (m ((c.tc : Thread nD τ).loc main_arg0)) :=
  (after_ternary_at ops_writes _ 22 rfl (by decide) (by decide) (by decide) (by decide)).trans (by
    rw [stage_main_v11 m c, stage_main_call1_v1 m c, stage_main_v12 m c]; unfold ReadP.val_main_v13; generalize ReadP.val_main_v11 (F := F) = u0; generalize ReadP.val_main_call1_v1 (F := F) = u1; generalize ReadP.val_main_v12 (F := F) _ = u2
    exact (eq_of_heq (cast_heq _ _)).trans (congr (congr (congrArg select (eq_of_heq (cast_heq _ _))) (eq_of_heq (cast_heq _ _))) (eq_of_heq (cast_heq _ _))))
theorem stage_main_cst_1 : Wf (Proc.devRef .tc main_cst_1) = ReadP.val_main_cst_1 (F := F) :=
  (after_nullary_at ops_writes _ 23 rfl (by decide)).trans rfl
theorem stage_main_v14 : Wf (Proc.devRef .tc main_v14) = ReadP.val_main_v14 (F := F) (m ((c.tc : Thread nD τ).loc main_arg0)) :=
  (after_binary_at ops_writes _ 24 rfl (by decide) (by decide) (by decide)).trans (by rw [stage_main_v13 m c, stage_main_cst_1 m c]; rfl)
theorem stage_main_v15 : Wf (Proc.devRef .tc main_v15) = ReadP.val_main_v15 (F := F) (m ((c.tc : Thread nD τ).loc main_arg0)) :=
  (after_unary_at ops_writes _ 25 rfl (by decide) (by decide)).trans (by rw [stage_main_v14 m c]; rfl)
theorem stage_main_v16 : Wf (Proc.devRef .tc main_v16) = ReadP.val_main_v16 (F := F) (m ((c.tc : Thread nD τ).loc main_arg0)) :=
  (after_unary_at ops_writes _ 26 rfl (by decide) (by decide)).trans (by rw [stage_main_v15 m c]; rfl)
theorem stage_main_v17 : Wf (Proc.devRef .tc main_v17) = ReadP.val_main_v17 (F := F) (m ((c.tc : Thread nD τ).loc main_arg0)) :=
  (after_unary_at ops_writes _ 27 rfl (by decide) (by decide)).trans (by rw [stage_main_v16 m c]; rfl)
theorem stage_main_v18 : Wf (Proc.devRef .tc main_v18) = ReadP.val_main_v18 (F := F) (m ((c.tc : Thread nD τ).loc main_arg0)) :=
  (after_binary_at ops_writes _ 28 rfl (by decide) (by decide) (by decide)).trans (by rw [stage_main_v6 m c, stage_main_v17 m c]; rfl)
theorem stage_main_v19 : Wf (Proc.devRef .tc main_v19) = ReadP.val_main_v19 (F := F) (m ((c.tc : Thread nD τ).loc main_arg1)) :=
  (after_unary_at ops_writes _ 29 rfl (by decide) (by decide)).trans (by rw [stage_main_arg1 m c]; rfl)
theorem stage_main_v20 : Wf (Proc.devRef .tc main_v20) = ReadP.val_main_v20 (F := F) (m ((c.tc : Thread nD τ).loc main_arg1)) :=
  (after_unary_at ops_writes _ 30 rfl (by decide) (by decide)).trans (by rw [stage_main_arg1 m c]; rfl)
theorem stage_main_v21 : Wf (Proc.devRef .tc main_v21) = ReadP.val_main_v21 (F := F) (m ((c.tc : Thread nD τ).loc main_arg1)) :=
  (after_unary_at ops_writes _ 31 rfl (by decide) (by decide)).trans (by rw [stage_main_v19 m c]; rfl)
theorem stage_main_v22 : Wf (Proc.devRef .tc main_v22) = ReadP.val_main_v22 (F := F) (m ((c.tc : Thread nD τ).loc main_arg1)) :=
  (after_unary_at ops_writes _ 32 rfl (by decide) (by decide)).trans (by rw [stage_main_v20 m c]; rfl)
theorem stage_main_v23 : Wf (Proc.devRef .tc main_v23) = ReadP.val_main_v23 (F := F) (m ((c.tc : Thread nD τ).loc main_arg1)) :=
  (after_binary_at ops_writes _ 33 rfl (by decide) (by decide) (by decide)).trans (by rw [stage_main_v21 m c, stage_main_v22 m c]; rfl)
theorem stage_main_v24 : Wf (Proc.devRef .tc main_v24) = ReadP.val_main_v24 (F := F) :=
  (after_unary_at ops_writes _ 34 rfl (by decide) (by decide)).trans (by rw [stage_main_v11 m c]; rfl)
theorem stage_main_v25 : Wf (Proc.devRef .tc main_v25) = ReadP.val_main_v25 (F := F) (m ((c.tc : Thread nD τ).loc main_arg1)) :=
  (after_binary_at ops_writes _ 35 rfl (by decide) (by decide) (by decide)).trans (by rw [stage_main_v23 m c, stage_main_v24 m c]; rfl)
theorem stage_main_v26 : Wf (Proc.devRef .tc main_v26) = ReadP.val_main_v26 (F := F) (m ((c.tc : Thread nD τ).loc main_arg1)) :=
  (after_unary_at ops_writes _ 36 rfl (by decide) (by decide)).trans (by rw [stage_main_v25 m c]; rfl)
theorem stage_main_c_2 : Wf (Proc.devRef .tc main_c_2) = ReadP.val_main_c_2 (F := F) :=
  (after_nullary_at ops_writes _ 37 rfl (by decide)).trans rfl
theorem stage_main_v27 : Wf (Proc.devRef .tc main_v27) = ReadP.val_main_v27 (F := F) (m ((c.tc : Thread nD τ).loc main_arg1)) :=
  (after_binary_at ops_writes _ 38 rfl (by decide) (by decide) (by decide)).trans (by rw [stage_main_v26 m c, stage_main_c_2 m c]; rfl)
theorem stage_main_cst_3 : Wf (Proc.devRef .tc main_cst_3) = ReadP.val_main_cst_3 (F := F) :=
  (after_nullary_at ops_writes _ 39 rfl (by decide)).trans rfl
theorem stage_main_call2_v0 : Wf (Proc.devRef .tc main_call2_v0) = ReadP.val_main_call2_v0 (F := F) :=
  (after_unary_at ops_writes _ 40 rfl (by decide) (by decide)).trans (by
    rw [stage_main_cst_3 m c]; unfold ReadP.val_main_call2_v0; generalize ReadP.val_main_cst_3 (F := F) = u0; rfl)
theorem stage_main_call2_v1 : Wf (Proc.devRef .tc main_call2_v1) = ReadP.val_main_call2_v1 (F := F) :=
  (after_unary_at ops_writes _ 41 rfl (by decide) (by decide)).trans (by
    rw [stage_main_call2_v0 m c]; unfold ReadP.val_main_call2_v1; generalize ReadP.val_main_call2_v0 (F := F) = u0; rfl)
theorem stage_main_v28 : Wf (Proc.devRef .tc main_v28) = ReadP.val_main_v28 (F := F) (m ((c.tc : Thread nD τ).loc main_arg0)) (m ((c.tc : Thread nD τ).loc main_arg1)) :=
  (after_ternary_at ops_writes _ 42 rfl (by decide) (by decide) (by decide) (by decide)).trans (by
    rw [stage_main_v25 m c, stage_main_v18 m c, stage_main_call2_v1 m c]; unfold ReadP.val_main_v28; generalize ReadP.val_main_v25 (F := F) _ = u0; generalize ReadP.val_main_v18 (F := F) _ = u1; generalize ReadP.val_main_call2_v1 (F := F) = u2
    exact (eq_of_heq (cast_heq _ _)).trans (congr (congr (congrArg select (eq_of_heq (cast_heq _ _))) (eq_of_heq (cast_heq _ _))) (eq_of_heq (cast_heq _ _))))
theorem stage_main_cst_4 : Wf (Proc.devRef .tc main_cst_4) = ReadP.val_main_cst_4 (F := F) :=
  (after_nullary_at ops_writes _ 43 rfl (by decide)).trans rfl
theorem stage_main_v29 : Wf (Proc.devRef .tc main_v29) = ReadP.val_main_v29 (F := F) (m ((c.tc : Thread nD τ).loc main_arg0)) (m ((c.tc : Thread nD τ).loc main_arg1)) :=
  (after_binary_at ops_writes _ 44 rfl (by decide) (by decide) (by decide)).trans (by rw [stage_main_v28 m c, stage_main_cst_4 m c]; rfl)
theorem stage_main_c_5 : Wf (Proc.devRef .tc main_c_5) = ReadP.val_main_c_5 (F := F) :=
  (after_nullary_at ops_writes _ 45 rfl (by decide)).trans rfl
theorem stage_main_v30 : Wf (Proc.devRef .tc main_v30) = ReadP.val_main_v30 (F := F) :=
  (after_unary_at ops_writes _ 46 rfl (by decide) (by decide)).trans (by rw [stage_main_c_5 m c]; rfl)
theorem stage_main_v31 : Wf (Proc.devRef .tc main_v31) = ReadP.val_main_v31 (F := F) (m ((c.tc : Thread nD τ).loc main_arg1)) :=
  (after_binary_at ops_writes _ 47 rfl (by decide) (by decide) (by decide)).trans (by rw [stage_main_v27 m c, stage_main_v30 m c]; rfl)
theorem stage_main_v32 : Wf (Proc.devRef .tc main_v32) = ReadP.val_main_v32 (F := F) (m ((c.tc : Thread nD τ).loc main_arg0)) (m ((c.tc : Thread nD τ).loc main_arg1)) :=
  (after_unary_at ops_writes _ 48 rfl (by decide) (by decide)).trans (by rw [stage_main_v29 m c]; rfl)
theorem stage_main_c_6 : Wf (Proc.devRef .tc main_c_6) = ReadP.val_main_c_6 (F := F) :=
  (after_nullary_at ops_writes _ 49 rfl (by decide)).trans rfl
theorem stage_main_v33 : Wf (Proc.devRef .tc main_v33) = ReadP.val_main_v33 (F := F) :=
  (after_unary_at ops_writes _ 50 rfl (by decide) (by decide)).trans (by rw [stage_main_c_6 m c]; rfl)
theorem stage_main_v34 : Wf (Proc.devRef .tc main_v34) = ReadP.val_main_v34 (F := F) (m ((c.tc : Thread nD τ).loc main_arg1)) :=
  (after_binary_at ops_writes _ 51 rfl (by decide) (by decide) (by decide)).trans (by rw [stage_main_v27 m c, stage_main_v33 m c]; rfl)
theorem stage_main_v35 : Wf (Proc.devRef .tc main_v35) = ReadP.val_main_v35 (F := F) (m ((c.tc : Thread nD τ).loc main_arg1)) :=
  (after_unary_at ops_writes _ 52 rfl (by decide) (by decide)).trans (by rw [stage_main_v34 m c]; rfl)
theorem stage_main_v36 : Wf (Proc.devRef .tc main_v36) = ReadP.val_main_v36 (F := F) (m ((c.tc : Thread nD τ).loc main_arg0)) (m ((c.tc : Thread nD τ).loc main_arg1)) :=
  (after_binary_at ops_writes _ 53 rfl (by decide) (by decide) (by decide)).trans (by rw [stage_main_v32 m c, stage_main_v35 m c]; rfl)
theorem stage_main_cst_7 : Wf (Proc.devRef .tc main_cst_7) = ReadP.val_main_cst_7 (F := F) :=
  (after_nullary_at ops_writes _ 54 rfl (by decide)).trans rfl
theorem stage_main_call3_v0 : Wf (Proc.devRef .tc main_call3_v0) = ReadP.val_main_call3_v0 (F := F) :=
  (after_unary_at ops_writes _ 55 rfl (by decide) (by decide)).trans (by
    rw [stage_main_cst_7 m c]; unfold ReadP.val_main_call3_v0; generalize ReadP.val_main_cst_7 (F := F) = u0; rfl)
theorem stage_main_call3_v1 : Wf (Proc.devRef .tc main_call3_v1) = ReadP.val_main_call3_v1 (F := F) :=
  (after_unary_at ops_writes _ 56 rfl (by decide) (by decide)).trans (by
    rw [stage_main_call3_v0 m c]; unfold ReadP.val_main_call3_v1; generalize ReadP.val_main_call3_v0 (F := F) = u0; rfl)
theorem stage_main_v37 : Wf (Proc.devRef .tc main_v37) = ReadP.val_main_v37 (F := F) (m ((c.tc : Thread nD τ).loc main_arg0)) (m ((c.tc : Thread nD τ).loc main_arg1)) :=
  (after_ternary_at ops_writes _ 57 rfl (by decide) (by decide) (by decide) (by decide)).trans (by
    rw [stage_main_v31 m c, stage_main_v36 m c, stage_main_call3_v1 m c]; unfold ReadP.val_main_v37; generalize ReadP.val_main_v31 (F := F) _ = u0; generalize ReadP.val_main_v36 (F := F) _ _ = u1; generalize ReadP.val_main_call3_v1 (F := F) = u2
    exact (eq_of_heq (cast_heq _ _)).trans (congr (congr (congrArg select (eq_of_heq (cast_heq _ _))) (eq_of_heq (cast_heq _ _))) (eq_of_heq (cast_heq _ _))))
theorem stage_main_cst_8 : Wf (Proc.devRef .tc main_cst_8) = ReadP.val_main_cst_8 (F := F) :=
  (after_nullary_at ops_writes _ 58 rfl (by decide)).trans rfl
theorem stage_main_v38 : Wf (Proc.devRef .tc main_v38) = ReadP.val_main_v38 (F := F) (m ((c.tc : Thread nD τ).loc main_arg0)) (m ((c.tc : Thread nD τ).loc main_arg1)) :=
  (after_binary_at ops_writes _ 59 rfl (by decide) (by decide) (by decide)).trans (by rw [stage_main_v37 m c, stage_main_cst_8 m c]; rfl)

end Stages
-- TABLE END

/-- After the sixty operations the result buffer holds the last stage's value of the two arguments' launch contents. -/
theorem after_eq_val (m : (ℓ : Loc nD τ sig) → Buf (Elt F) ℓ) (c : Dev nD) :
    StableHlo.after (ValueP.ops (F := F)) (launchContents m c) (Proc.devRef .tc main_v38)
      = ReadP.val_main_v38 (F := F) (m ((c.tc : Thread nD τ).loc main_arg0)) (m ((c.tc : Thread nD τ).loc main_arg1)) :=
  stage_main_v38 m c

end Cert.ReferenceIdeal.RefValue

end
-- ==== Proof.RefValue.lean ====
/-
  The reference's result, read one operation at a time, is the loss with the logarithm inside the sum over
  the positives, taken at the reference's own normalised rows and at the labels: the similarity matrix is the rows'
  products summed over the 256 features and divided by the temperature; the diagonal is masked out of the
  exponential sums; a pair is positive when the labels agree off the diagonal; the count of positives is an integer sum
  of the mask's bits (at most 8191, far from the word's range), converted exactly.
-/
import proofs.«101262_j54296976556236_1_alg».proof.Proof.RefReadP
import proofs.«101262_j54296976556236_1_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

namespace Cert.ReferenceIdeal.RefValue

open Idealize.ShloMosaic Idealize.ShloMosaic.TcCoe Idealize.SL.Sem
open Idealize.ShloMosaic.ValueIdx
open Cert.ReferenceIdeal

/-- The reference's normalised rows. -/
abbrev nR (x : (⟨S8192x256, .f32⟩ : BufTy).Contents (Elt Ideal)) : Fin 8192 → Fin 256 → EReal :=
  fun i k => ReadP.val_main_v2 (F := Ideal) x (ix2 i k)
/-- The labels. -/
abbrev labR (lab : (⟨S8192, .i32⟩ : BufTy).Contents (Elt Ideal)) : Fin 8192 → BitVec 32 := fun i => lab (ix1 i)

/-! ## The similarity matrix -/

/-- The left operand of the product at (i, j), feature k, is row i at k. -/
theorem lidx_eq (i j : Fin 8192) (k : Fin 256) : ReadP.lidx_main_v4 (ix2 i j) k = ix2 i k :=
  funext fun a => Fin.ext (by match a with | ⟨0, _⟩ => rfl | ⟨1, _⟩ => rfl)

/-- The right operand, read through the transposition, is row j at k. -/
theorem ridx_eq (i j : Fin 8192) (k : Fin 256) : ReadP.idx_main_v3 (ReadP.ridx_main_v4 (ix2 i j) k) = ix2 j k :=
  funext fun a => Fin.ext (by match a with | ⟨0, _⟩ => rfl | ⟨1, _⟩ => rfl)

/-- The scaled similarity of rows i and j. -/
theorem sim_eq (x : (⟨S8192x256, .f32⟩ : BufTy).Contents (Elt Ideal)) (i j : Fin 8192) :
    ReadP.val_main_v6 (F := Ideal) x (ix2 i j) = Contrast.simR (nR x) i j := by
  rw [ReadP.val_main_v6_apply, ReadP.val_main_v4_apply, ReadP.val_main_v5_apply, ReadP.val_main_cst_apply]
  simp only [ReadP.val_main_v3_apply, lidx_eq, ridx_eq, Ideal.hostDivf_def, Ideal.ofBits_def]
  rfl

/-! ## The diagonal -/

/-- Two row numbers below 8192 are equal as 32-bit words exactly when they are equal. -/
theorem ofNat_eq_iff (i j : Fin 8192) : BitVec.ofNat 32 i.val = BitVec.ofNat 32 j.val ↔ i = j := by
  constructor
  · intro h
    have h' := congrArg BitVec.toNat h
    simp only [BitVec.toNat_ofNat] at h'
    have hi := i.isLt
    have hj := j.isLt
    exact Fin.ext (by omega)
  · rintro rfl; rfl

/-- The diagonal's bit is set exactly on the diagonal. -/
theorem eye_iff (i j : Fin 8192) : ReadP.val_main_v11 (F := Ideal) (ix2 i j) = 1#1 ↔ i = j := by
  rw [ReadP.val_main_v11_apply, ReadP.val_main_v10_apply, ReadP.val_main_v7_apply, ReadP.val_main_v8_apply,
    ReadP.val_main_v9_apply, ReadP.val_main_c_apply, StableHlo.Predicate.cmpi_eq_iff]
  show BitVec.ofNat 32 i.val + 0#32 = BitVec.ofNat 32 j.val ↔ i = j
  rw [BitVec.add_zero]
  exact ofNat_eq_iff i j

/-- The exponential of the similarity, the diagonal replaced by zero. -/
theorem expOff_eq (x : (⟨S8192x256, .f32⟩ : BufTy).Contents (Elt Ideal)) (i j : Fin 8192) :
    ReadP.val_main_v13 (F := Ideal) x (ix2 i j) = if i = j then 0 else Ideal.exp (Contrast.simR (nR x) i j) := by
  rw [ReadP.val_main_v13_apply, ReadP.val_main_call1_v1_apply, ReadP.val_main_call1_v0_apply, ReadP.val_main_cst_0_apply,
    ReadP.val_main_v12_apply, sim_eq]
  simp only [Ideal.ofBits_def, Ideal.ofBits_zero_f32, Ideal.hostUnary_exp_def]
  by_cases h : i = j
  · rw [if_pos h, (eye_iff i j).mpr h]; rfl
  · rw [if_neg h, eq_zero_of_ne_one (fun e => h ((eye_iff i j).mp e))]; rfl

/-! ## The row sums and the log-probabilities -/

theorem idx14_eq (i : Fin 8192) (k : Fin 8192) : ReadP.idx_main_v14 (ix1 i) k = ix2 i k :=
  funext fun a => Fin.ext (by match a with | ⟨0, _⟩ => rfl | ⟨1, _⟩ => rfl)

/-- The sum of the off-diagonal exponentials of row i. -/
theorem rowSum_eq (x : (⟨S8192x256, .f32⟩ : BufTy).Contents (Elt Ideal)) (i : Fin 8192) :
    ReadP.val_main_v14 (F := Ideal) x (ix1 i) = Contrast.rowSum (Contrast.simR (nR x)) i := by
  rw [ReadP.val_main_v14_apply, ReadP.val_main_cst_1_apply]
  simp only [idx14_eq, expOff_eq, Ideal.ofBits_def, Ideal.ofBits_zero_f32, zero_add]
  rfl

theorem idx1617_eq (i j : Fin 8192) : ReadP.idx_main_v16 (ReadP.idx_main_v17 (ix2 i j)) = ix1 i :=
  funext fun a => Fin.ext (by match a with | ⟨0, _⟩ => rfl)

/-- The log-probability of the pair (i, j). -/
theorem logProb_eq (x : (⟨S8192x256, .f32⟩ : BufTy).Contents (Elt Ideal)) (i j : Fin 8192) :
    ReadP.val_main_v18 (F := Ideal) x (ix2 i j)
      = Contrast.simR (nR x) i j - Ideal.log (Contrast.rowSum (Contrast.simR (nR x)) i) := by
  rw [ReadP.val_main_v18_apply, ReadP.val_main_v17_apply, ReadP.val_main_v16_apply, ReadP.val_main_v15_apply,
    idx1617_eq, rowSum_eq, sim_eq]
  rfl

/-! ## The positives and their count -/

theorem idx1921_eq (i j : Fin 8192) : ReadP.idx_main_v19 (ReadP.idx_main_v21 (ix2 i j)) = ix1 i :=
  funext fun a => Fin.ext (by match a with | ⟨0, _⟩ => rfl)

theorem idx2022_eq (i j : Fin 8192) : ReadP.idx_main_v20 (ReadP.idx_main_v22 (ix2 i j)) = ix1 j :=
  funext fun a => Fin.ext (by match a with | ⟨0, _⟩ => rfl)

/-- The conjunction of two bits is set exactly when both are; the complement of a bit exactly when it is not. -/
theorem and_not_bit (a b : BitVec 1) : IntOp.andi a (~~~b) = 1#1 ↔ a = 1#1 ∧ ¬ b = 1#1 := by
  rcases BitVec.eq_zero_or_eq_one a with rfl | rfl <;> rcases BitVec.eq_zero_or_eq_one b with rfl | rfl <;> decide

/-- The mask's bit at (i, j) is set exactly when j is a positive of i. -/
theorem pos_iff (lab : (⟨S8192, .i32⟩ : BufTy).Contents (Elt Ideal)) (i j : Fin 8192) :
    ReadP.val_main_v25 (F := Ideal) lab (ix2 i j) = 1#1 ↔ Contrast.pos (labR lab) i j := by
  rw [ReadP.val_main_v25_apply, ReadP.val_main_v24_apply, and_not_bit, eye_iff, ReadP.val_main_v23_apply,
    StableHlo.Predicate.cmpi_eq_iff, ReadP.val_main_v21_apply, ReadP.val_main_v22_apply, ReadP.val_main_v19_apply,
    ReadP.val_main_v20_apply, idx1921_eq, idx2022_eq]
  rfl

theorem ij_eq (i j : Fin 8192) : StableHlo.Predicate.ij i j = (ix2 i j : S8192x8192.Idx) :=
  funext fun a => by match a with | ⟨0, _⟩ => rfl | ⟨1, _⟩ => rfl

/-- The integer sum of the mask's bits along row i is the number of positives of i. -/
theorem count_toNat (lab : (⟨S8192, .i32⟩ : BufTy).Contents (Elt Ideal)) (i : Fin 8192) :
    (ReadP.val_main_v27 (F := Ideal) lab (ix1 i)).toNat = Contrast.cnt (labR lab) i := by
  unfold ReadP.val_main_v27 ReadP.val_main_v26 ReadP.val_main_c_2
  rw [StableHlo.Predicate.toNat_reduce_count_cols (n := 8192) (m := 8192) (by decide)]
  unfold Contrast.cnt
  congr 1
  refine Finset.filter_congr fun q _ => ?_
  rw [show (ix1 i : S8192.Idx) 0 = i from rfl, ij_eq, pos_iff]

/-- The count is below 8193. -/
theorem cnt_le (lab : Fin 8192 → BitVec 32) (i : Fin 8192) : Contrast.cnt lab i ≤ 8192 := by
  unfold Contrast.cnt
  exact (Finset.card_le_univ _).trans (by simp)

/-! ## The count as a word: its sign test, its maximum with one, its conversion -/

/-- A small word is positive, read signed, exactly when its value is. -/
theorem sgt_zero_iff (c : BitVec 32) (hc : c.toNat < 2 ^ 31) : IntOp.cmpi .sgt c 0#32 = 1#1 ↔ 0 < c.toNat :=
  StableHlo.Predicate.sgt_iff_toNat hc (by decide)

/-- The signed maximum of a small word and one, read signed, is the maximum of the values. -/
theorem maxsi_one_toInt (c : BitVec 32) (hc : c.toNat < 2 ^ 31) :
    (IntOp.maxsi c 1#32).toInt = ((max c.toNat 1 : ℕ) : ℤ) := by
  have hti : c.toInt = (c.toNat : ℤ) := StableHlo.Predicate.toInt_eq_toNat_of_lt hc
  have h1 : (1#32 : BitVec 32).toInt = 1 := by decide
  unfold IntOp.maxsi
  by_cases h : 1 < c.toNat
  · rw [if_pos (by simp only [BitVec.slt, hti, h1, decide_eq_true_eq]; exact_mod_cast h), hti, max_eq_left (by omega)]
  · rw [if_neg (by simp only [BitVec.slt, hti, h1, decide_eq_true_eq]; omega), h1, max_eq_right (by omega)]
    rfl

/-! ## The inner sums -/

theorem idx29_eq (i : Fin 8192) (k : Fin 8192) : ReadP.idx_main_v29 (ix1 i) k = ix2 i k :=
  funext fun a => Fin.ext (by match a with | ⟨0, _⟩ => rfl | ⟨1, _⟩ => rfl)

/-- The log-probability kept at the positives, zero elsewhere. -/
theorem masked_eq (x : (⟨S8192x256, .f32⟩ : BufTy).Contents (Elt Ideal)) (lab : (⟨S8192, .i32⟩ : BufTy).Contents (Elt Ideal))
    (i j : Fin 8192) :
    ReadP.val_main_v28 (F := Ideal) x lab (ix2 i j)
      = if Contrast.pos (labR lab) i j then
          Contrast.simR (nR x) i j - Ideal.log (Contrast.rowSum (Contrast.simR (nR x)) i) else 0 := by
  rw [ReadP.val_main_v28_apply, ReadP.val_main_call2_v1_apply, ReadP.val_main_call2_v0_apply, ReadP.val_main_cst_3_apply,
    logProb_eq]
  simp only [Ideal.ofBits_def, Ideal.ofBits_zero_f32]
  by_cases h : Contrast.pos (labR lab) i j
  · rw [if_pos h, (pos_iff lab i j).mpr h]; rfl
  · rw [if_neg h, eq_zero_of_ne_one (fun e => h ((pos_iff lab i j).mp e))]; rfl

/-- The sum of the log-probabilities over the positives of row i. -/
theorem inner_eq (x : (⟨S8192x256, .f32⟩ : BufTy).Contents (Elt Ideal)) (lab : (⟨S8192, .i32⟩ : BufTy).Contents (Elt Ideal))
    (i : Fin 8192) :
    ReadP.val_main_v29 (F := Ideal) x lab (ix1 i) = Contrast.innerR (Contrast.simR (nR x)) (labR lab) i := by
  rw [ReadP.val_main_v29_apply, ReadP.val_main_cst_4_apply]
  simp only [idx29_eq, masked_eq, Ideal.ofBits_def, Ideal.ofBits_zero_f32, zero_add]
  rfl

/-! ## An anchor's term -/

/-- The term of row i: the negated inner sum over the count, or zero without positives. -/
theorem perRow_eq (x : (⟨S8192x256, .f32⟩ : BufTy).Contents (Elt Ideal)) (lab : (⟨S8192, .i32⟩ : BufTy).Contents (Elt Ideal))
    (i : Fin 8192) :
    ReadP.val_main_v37 (F := Ideal) x lab (ix1 i)
      = Contrast.perRow (Contrast.innerR (Contrast.simR (nR x)) (labR lab) i) (Contrast.cnt (labR lab) i) := by
  have hn := count_toNat lab i
  have hle := cnt_le (labR lab) i
  have hc : (ReadP.val_main_v27 (F := Ideal) lab (ix1 i)).toNat < 2 ^ 31 := by rw [hn]; omega
  rw [ReadP.val_main_v37_apply, ReadP.val_main_v31_apply, ReadP.val_main_v30_apply, ReadP.val_main_c_5_apply,
    ReadP.val_main_v36_apply, ReadP.val_main_v32_apply, ReadP.val_main_v35_apply, ReadP.val_main_v34_apply,
    ReadP.val_main_v33_apply, ReadP.val_main_c_6_apply, ReadP.val_main_call3_v1_apply, ReadP.val_main_call3_v0_apply,
    ReadP.val_main_cst_7_apply, inner_eq]
  simp only [Ideal.ofBits_def, Ideal.ofBits_zero_f32, Ideal.hostDivf_def]
  have hconv : FloatOps.sitofp (F := Ideal) .f32 (IntOp.maxsi (ReadP.val_main_v27 (F := Ideal) lab (ix1 i)) 1#32)
      = (((max (Contrast.cnt (labR lab) i) 1 : ℕ) : ℝ) : EReal) := by
    show (((IntOp.maxsi (ReadP.val_main_v27 (F := Ideal) lab (ix1 i)) 1#32).toInt : ℝ) : EReal) = _
    rw [maxsi_one_toInt _ hc, hn, Int.cast_natCast]
  rw [hconv]
  have hs := sgt_zero_iff _ hc
  rw [hn] at hs
  unfold Contrast.perRow
  by_cases h : 0 < Contrast.cnt (labR lab) i
  · rw [if_pos h, hs.mpr h]; rfl
  · rw [if_neg h, eq_zero_of_ne_one (fun e => h (hs.mp e))]; rfl

/-! ## The total -/

/-- The indices of the 8192 anchors are the anchors. -/
def anchorEquiv : S8192.Idx ≃ Fin 8192 where
  toFun j := j 0
  invFun := ix1
  left_inv j := (eq_ix1 j).symm
  right_inv _ := rfl

theorem ref_value (x : (⟨S8192x256, .f32⟩ : BufTy).Contents (Elt Ideal)) (lab : (⟨S8192, .i32⟩ : BufTy).Contents (Elt Ideal)) :
    ReadP.val_main_v38 (F := Ideal) x lab = fun _ => Contrast.lossR (nR x) (labR lab) := by
  funext i0
  rw [ReadP.val_main_v38_apply, ReadP.val_main_cst_8_apply]
  simp only [Ideal.ofBits_def, Ideal.ofBits_zero_f32, zero_add]
  unfold Contrast.lossR
  exact (Equiv.sum_comp anchorEquiv.symm _).symm.trans (Finset.sum_congr rfl fun i _ => perRow_eq x lab i)

end Cert.ReferenceIdeal.RefValue

end
-- ==== Proof.Bridge.lean ====
/-
  The two programs normalise the rows by the same host operations (the row norms, the division), and the
  kernel's change of float format is the identity on the extended reals: the matrix the kernel's two row
  windows read is the reference's normalised matrix of the same argument, and the labels are the argument's.
-/
import proofs.«101262_j54296976556236_1_alg».proof.Proof.KI.ValDefs
import proofs.«101262_j54296976556236_1_alg».proof.Proof.RefValue
import Idealize.ShloMosaic.Lib.StableHlo.Run

set_option maxRecDepth 16384

noncomputable section

namespace Cert.Proof.Bridge

open Idealize.ShloMosaic Idealize.ShloMosaic.TcCoe Idealize.SL.Sem Idealize.ShloMosaic.StableHlo
open Idealize.ShloMosaic.ValueIdx

/-- The kernel's normalised rows are the reference's, at the kernel's first argument. -/
theorem nK_eq (m : (ℓ : Loc Cert.KernelIdeal.nD Cert.KernelIdeal.τ Cert.KernelIdeal.sig) → Buf (Elt Ideal) ℓ) (c : Dev Cert.KernelIdeal.nD) :
    Cert.KernelIdeal.H.nK m c
      = Cert.ReferenceIdeal.RefValue.nR (m ((c.tc : Thread Cert.KernelIdeal.nD Cert.KernelIdeal.τ).loc Cert.KernelIdeal.main_arg0)) := by
  have e : (Cert.KernelIdeal.H.V (F := Ideal) m c Cert.KernelIdeal.main_v3 : Cert.KernelIdeal.S8192x256.Idx → EReal)
      = Cert.ReferenceIdeal.ReadP.val_main_v2 (F := Ideal) (m ((c.tc : Thread Cert.KernelIdeal.nD Cert.KernelIdeal.τ).loc Cert.KernelIdeal.main_arg0)) := by
    dsimp only [Cert.KernelIdeal.H.V, Cert.KernelIdeal.H.V0]
    simp only [Cert.KernelIdeal.Gen.hostOps0, Cert.KernelIdeal.Gen.hostOps0_1, List.flatten_cons, List.flatten_nil, List.append_nil,
      List.cons_append, List.nil_append]
    after_results
    rfl
  funext i k
  exact congrFun e (ix2 i k)

/-- The labels are the kernel's second argument's. -/
theorem labK_eq (m : (ℓ : Loc Cert.KernelIdeal.nD Cert.KernelIdeal.τ Cert.KernelIdeal.sig) → Buf (Elt Ideal) ℓ) (c : Dev Cert.KernelIdeal.nD) :
    Cert.KernelIdeal.H.labK m c
      = Cert.ReferenceIdeal.RefValue.labR (m ((c.tc : Thread Cert.KernelIdeal.nD Cert.KernelIdeal.τ).loc Cert.KernelIdeal.main_arg1)) := rfl

end Cert.Proof.Bridge

end
-- ==== Proof.lean ====
/-
  The self-contrastive loss of row-normalised embeddings: a fused kernel against the plain formula.

  Both programs divide every row of the embedding by its norm with the same host operations. The reference then forms
  the 8192 x 8192 matrix of scaled similarities `s`, and per anchor row `i` the sum `S_i` of `exp s_ij` over `j ≠ i`, the
  inner sum `Σ_{j ∈ P_i} (s_ij - log S_i)` over the positives `P_i` (the other rows with `i`'s label), and the term
  `-inner / max |P_i| 1` where `P_i` is not empty; the result is the sum of the terms. The kernel walks the matrix in
  512 x 512 tiles on a 16 x 16 grid, the key tile fastest, and for the query tile at hand keeps three per-row
  accumulators over the key tiles — the off-diagonal `exp` sums, the positives' similarity sums and the positives'
  counts —, reset at the first key tile; at the last it writes `(0 - (Σ_{j ∈ P_i} s_ij - |P_i| · log S_i)) / max |P_i| 1`
  for its 512 rows, and the host sums the 8192 rows.

  On the extended reals the two agree at EVERY input: sums may be regrouped freely (addition there is commutative and
  associative), the product with 2 is the quotient by 1/2 at every extended real, and taking `log S_i` out of the sum
  over the positives is an identity of finite sums that holds for every value of the logarithm, infinite ones
  included (module Spec). So the precondition is never opened.

  The kernel's frame is proved once, generic in the float family, and read at both instances: the body's three runs (a
  first, a middle, the last key tile) give the body obligation against proof data that name the accumulators point
  by point; the normalised matrix is read by two windows, so its array is dealt half to each at the region's entry
  and joined after it (modules KI/*, and K/* for the word-level program).
-/
import proofs.«101262_j54296976556236_1_alg».proof.Defs
import proofs.«101262_j54296976556236_1_alg».proof.Proof.Gen.Kernel
import proofs.«101262_j54296976556236_1_alg».proof.Proof.Gen.KernelIdeal
import proofs.«101262_j54296976556236_1_alg».proof.Proof.Gen.ReferenceIdeal
import proofs.«101262_j54296976556236_1_alg».proof.Proof.Gen.Pre_finite_inputs
import proofs.«101262_j54296976556236_1_alg».proof.Proof.K.Body
import proofs.«101262_j54296976556236_1_alg».proof.Proof.K.Launch
import proofs.«101262_j54296976556236_1_alg».proof.Proof.KI.Body
import proofs.«101262_j54296976556236_1_alg».proof.Proof.KI.Launch
import proofs.«101262_j54296976556236_1_alg».proof.Proof.KI.Final
import proofs.«101262_j54296976556236_1_alg».proof.Proof.RefAfter
import proofs.«101262_j54296976556236_1_alg».proof.Proof.RefValue
import proofs.«101262_j54296976556236_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_k : Cert.frame_Kernel := fun m ρ _ =>
  (θ_run Cert.Kernel.defs _ _).mono (fun _ h c => ⟨(h c).2.1, (h c).2.2⟩)
    (Cert.Kernel.H.run_main (F := Bits) m ρ (fun c => (Cert.Kernel.H.body_obligation m c).loose) (Cert.Kernel.H.hin m) (Cert.Kernel.H.hout m))

theorem frame_ki : Cert.frame_KernelIdeal := fun m ρ _ =>
  (θ_run Cert.KernelIdeal.defs _ _).mono (fun _ h c => ⟨(h c).2.1, (h c).2.2⟩)
    (Cert.KernelIdeal.H.run_main (F := Ideal) m ρ (fun c => (Cert.KernelIdeal.H.body_obligation m c).loose) (Cert.KernelIdeal.H.hin m) (Cert.KernelIdeal.H.hout m))

/-- The reference is sixty host operations in a line. -/
theorem frame_ri : Cert.frame_ReferenceIdeal := fun m ρ _ =>
  (θ_run Cert.ReferenceIdeal.defs _ _).mono (fun _ h c => (h c).2) (Cert.ReferenceIdeal.ValueP.run (F := Ideal) m ρ)

/-- Both results are the loss of the same normalised rows and labels, in its two arrangements. -/
theorem algebraic : Cert.algebraic_KernelIdeal_ReferenceIdeal := by
  intro m ρ m' ρ' _ hagree
  refine ⟨fun c _ => Contrast.lossK (Cert.KernelIdeal.H.nK m c) (Cert.KernelIdeal.H.labK m c), ?_, ?_⟩
  · refine (θ_run Cert.KernelIdeal.defs _ _).mono (fun _ h c => ⟨(h c).1.trans ?_, (h c).2⟩)
      (Cert.KernelIdeal.H.run_main (F := Ideal) m ρ (fun c => (Cert.KernelIdeal.H.body_obligation m c).loose) (Cert.KernelIdeal.H.hin m) (Cert.KernelIdeal.H.hout m))
    exact Cert.KernelIdeal.H.k_value m c
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.after_eq_val, Cert.ReferenceIdeal.RefValue.ref_value, (hagree c).1, (hagree c).2,
      ← Bridge.nK_eq m c, ← Bridge.labK_eq m c]
    exact funext fun _ => (Contrast.loss_eq _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
